-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x64 : Shape := ⟨2, ![10000, 64]⟩
abbrev S100000x64 : Shape := ⟨2, ![100000, 64]⟩
abbrev S10000x10000 : Shape := ⟨2, ![10000, 10000]⟩
abbrev S4096 : Shape := ⟨1, ![4096]⟩
abbrev S_ : Shape := ⟨0, ![]⟩

class Facts : Prop where
  bcast_S_S10000x64 : S_.BroadcastsInDim S10000x64 (![] : Fin 0 → Fin S10000x64.rank)
  reducesTo_S10000x64_S_d0_1 : S10000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S10000x10000 : S_.BroadcastsInDim S10000x10000 (![] : Fin 0 → Fin S10000x10000.rank)
  reducesTo_S10000x10000_S_d0_1 : S10000x10000.ReducesTo [0, 1] S_

variable [Facts]

def fn {F : FTy → Type} [FloatOps F] (main_arg0 : FVec F S10000x64 .f32) (main_arg1 : FVec F S100000x64 .f32) (main_arg2 : FVec F S10000x10000 .f32) (main_arg3 : IVec S4096 32) (main_arg4 : IVec S4096 32) : IVec S_ 1 :=
  let main_v0 : FVec F S10000x64 .f32 := Host.absf main_arg0
  let main_cst : FVec F S_ .f32 := constant S_ .f32 0x7F800000#32
  let main_v1 : FVec F S10000x64 .f32 := broadcastInDim S10000x64 ![] bcast_S_S10000x64 main_cst
  let main_v2 : IVec S10000x64 1 := cmpf .olt main_v0 main_v1
  let main_c : IVec S_ 1 := constantI S_ 1 1#1
  let main_v3 : IVec S_ 1 := (fun x v => Host.reduce IntOp.andi x v reducesTo_S10000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  main_v13
-- ==== Kernel.lean ====
abbrev S10000x64 : Shape := ⟨2, ![10000, 64]⟩
abbrev S100000x64 : Shape := ⟨2, ![100000, 64]⟩
abbrev S10000x10000 : Shape := ⟨2, ![10000, 10000]⟩
abbrev S4096 : Shape := ⟨1, ![4096]⟩
abbrev S200x10000 : Shape := ⟨2, ![200, 10000]⟩
abbrev S200x64 : Shape := ⟨2, ![200, 64]⟩
abbrev S_ : Shape := ⟨0, ![]⟩
abbrev S4096x1 : Shape := ⟨2, ![4096, 1]⟩
abbrev S4096x64 : Shape := ⟨2, ![4096, 64]⟩

abbrev nBuf : Space → Nat
  | .hbm => 27
  | .vmem => 7
  | .smem => 0
  | _ => 0

abbrev bufTy : (tb : Table) → Fin (tcTables nBuf tb) → BufTy
  | .hbm, ⟨0, _⟩ => ⟨S10000x64, .f32⟩
  | .hbm, ⟨1, _⟩ => ⟨S100000x64, .f32⟩
  | .hbm, ⟨2, _⟩ => ⟨S10000x10000, .f32⟩
  | .hbm, ⟨3, _⟩ => ⟨S4096, .i32⟩
  | .hbm, ⟨4, _⟩ => ⟨S4096, .i32⟩
  | .hbm, ⟨5, _⟩ => ⟨S10000x64, .f32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S4096x64, .f32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S4096x1, .i32⟩
  | .hbm, ⟨23, _⟩ => ⟨S4096x64, .f32⟩
  | .hbm, ⟨24, _⟩ => ⟨S4096x64, .f32⟩
  | .hbm, ⟨25, _⟩ => ⟨S_, .f32⟩
  | .hbm, ⟨26, _⟩ => ⟨S4096, .f32⟩
  | .local _ .vmem, ⟨0, _⟩ => ⟨S200x10000, .f32⟩
  | .local _ .vmem, ⟨1, _⟩ => ⟨S200x10000, .f32⟩
  | .local _ .vmem, ⟨2, _⟩ => ⟨S10000x64, .f32⟩
  | .local _ .vmem, ⟨3, _⟩ => ⟨S200x64, .f32⟩
  | .local _ .vmem, ⟨4, _⟩ => ⟨S200x64, .f32⟩
  | .local _ .vmem, ⟨5, _⟩ => ⟨S200x64, .f32⟩
  | .local _ .vmem, ⟨6, _⟩ => ⟨S200x64, .f32⟩
  | _, _ => ⟨S10000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S200x10000_S200x10000_0_0 : ∀ a, (![0, 0] : Fin 2 → Nat) a + S200x10000.size a ≤ S200x10000.size a
  h_S200x10000 : 0 < S200x10000.numel
  bitsLt_bf16_f32 : FTy.bits .bf16 < FTy.bits .f32
  inb_S10000x64_S10000x64_0_0 : ∀ a, (![0, 0] : Fin 2 → Nat) a + S10000x64.size a ≤ S10000x64.size a
  h_S10000x64 : 0 < S10000x64.numel
  inb_S200x64_S200x64_0_0 : ∀ a, (![0, 0] : Fin 2 → Nat) a + S200x64.size a ≤ S200x64.size a
  h_S200x64 : 0 < S200x64.numel
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S4096_d1 : S4096x64.ReducesTo [1] S4096
  h_S_ : 0 < S_.numel
  dot_S200x10000_S10000x64_S200x64_1_0_0_1_n_n_wf : DotDims.WF S200x10000 S10000x64 S200x64 [1] [0] [0] [1] [] []
  gather_S10000x64_S4096x1_S4096x64_1_0_n_n_0_1_164_wf : GatherDims.WF S10000x64 S4096x1 S4096x64 [1] [0] [] [0] [] 1 ![1, 64]
  gather_S100000x64_S4096x1_S4096x64_1_0_n_n_0_1_164_wf : GatherDims.WF S100000x64 S4096x1 S4096x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S10000x64.size a
  hwx0_1 : ∀ i : grid0.Coords, EltTy.bits .f32 = 32 ∨ (Rect.block (s := S10000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x64.size a ≤ S10000x64.size a
  hwx0_2 : ∀ i : grid0.Coords, EltTy.bits .f32 = 32 ∨ (Rect.block (s := S10000x64) S200x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x64.size a ≤ S10000x64.size a
  hwx0_3 : ∀ i : grid0.Coords, EltTy.bits .f32 = 32 ∨ (Rect.block (s := S10000x64) S200x64.size (cc0_transform_3 i) (hinb0_3 i)).WholeWords (EltTy.packing .f32)

variable [Facts₀]

def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def gather_S10000x64_S4096x1_S4096x64_1_0_n_n_0_1_164 : GatherDims S10000x64 S4096x1 S4096x64 where
  offsetDims := [1]
  collapsedSliceDims := [0]
  operandBatchingDims := []
  startIndicesBatchingDims := []
  startIndexMap := [0]
  indexVectorDim := 1
  sliceSizes := ![1, 64]
  wf := gather_S10000x64_S4096x1_S4096x64_1_0_n_n_0_1_164_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf

abbrev win0_0 : Pipeline.Window sig grid0 :=
  Pipeline.Window.ofSpec (Memref.whole main_arg2) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S200x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S200x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x64 : Shape := ⟨2, ![10000, 64]⟩
abbrev S100000x64 : Shape := ⟨2, ![100000, 64]⟩
abbrev S10000x10000 : Shape := ⟨2, ![10000, 10000]⟩
abbrev S4096 : Shape := ⟨1, ![4096]⟩
abbrev S_ : Shape := ⟨0, ![]⟩
abbrev S4096x1 : Shape := ⟨2, ![4096, 1]⟩
abbrev S4096x64 : Shape := ⟨2, ![4096, 64]⟩
abbrev S4096x10000 : Shape := ⟨2, ![4096, 10000]⟩

abbrev nBuf : Space → Nat
  | .hbm => 40
  | .vmem => 0
  | .smem => 0
  | _ => 0

abbrev bufTy : (tb : Table) → Fin (tcTables nBuf tb) → BufTy
  | .hbm, ⟨0, _⟩ => ⟨S10000x64, .f32⟩
  | .hbm, ⟨1, _⟩ => ⟨S100000x64, .f32⟩
  | .hbm, ⟨2, _⟩ => ⟨S10000x10000, .f32⟩
  | .hbm, ⟨3, _⟩ => ⟨S4096, .i32⟩
  | .hbm, ⟨4, _⟩ => ⟨S4096, .i32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S4096x1, .i32⟩
  | .hbm, ⟨13, _⟩ => ⟨S4096x64, .f32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S4096, .i32⟩
  | .hbm, ⟨21, _⟩ => ⟨S4096x1, .i32⟩
  | .hbm, ⟨22, _⟩ => ⟨S4096x64, .f32⟩
  | .hbm, ⟨23, _⟩ => ⟨S4096x64, .f32⟩
  | .hbm, ⟨24, _⟩ => ⟨S_, .f32⟩
  | .hbm, ⟨25, _⟩ => ⟨S4096, .f32⟩
  | .hbm, ⟨26, _⟩ => ⟨S4096x10000, .f32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S4096x1, .i32⟩
  | .hbm, ⟨35, _⟩ => ⟨S4096x10000, .f32⟩
  | .hbm, ⟨36, _⟩ => ⟨S4096x10000, .f32⟩
  | .hbm, ⟨37, _⟩ => ⟨S_, .f32⟩
  | .hbm, ⟨38, _⟩ => ⟨S4096, .f32⟩
  | .hbm, ⟨39, _⟩ => ⟨S4096, .f32⟩
  | _, _ => ⟨S10000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S4096_d1 : S4096x64.ReducesTo [1] S4096
  h_S_ : 0 < S_.numel
  reducesTo_S4096x10000_S4096_d1 : S4096x10000.ReducesTo [1] S4096
  gather_S10000x64_S4096x1_S4096x64_1_0_n_n_0_1_164_wf : GatherDims.WF S10000x64 S4096x1 S4096x64 [1] [0] [] [0] [] 1 ![1, 64]
  gather_S100000x64_S4096x1_S4096x64_1_0_n_n_0_1_164_wf : GatherDims.WF S100000x64 S4096x1 S4096x64 [1] [0] [] [0] [] 1 ![1, 64]
  dot_S4096x64_S10000x64_S4096x10000_1_1_0_0_n_n_wf : DotDims.WF S4096x64 S10000x64 S4096x10000 [1] [1] [0] [0] [] []
  gather_S10000x10000_S4096x1_S4096x10000_1_0_n_n_0_1_110000_wf : GatherDims.WF S10000x10000 S4096x1 S4096x10000 [1] [0] [] [0] [] 1 ![1, 10000]

variable [Facts₀]

def gather_S10000x64_S4096x1_S4096x64_1_0_n_n_0_1_164 : GatherDims S10000x64 S4096x1 S4096x64 where
  offsetDims := [1]
  collapsedSliceDims := [0]
  operandBatchingDims := []
  startIndicesBatchingDims := []
  startIndexMap := [0]
  indexVectorDim := 1
  sliceSizes := ![1, 64]
  wf := gather_S10000x64_S4096x1_S4096x64_1_0_n_n_0_1_164_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def dot_S4096x64_S10000x64_S4096x10000_1_1_0_0_n_n : DotDims S4096x64 S10000x64 S4096x10000 where
  lhsContracting := [1]
  rhsContracting := [1]
  lhsNonContracting := [0]
  rhsNonContracting := [0]
  lhsBatch := []
  rhsBatch := []
  wf := dot_S4096x64_S10000x64_S4096x10000_1_1_0_0_n_n_wf
def gather_S10000x10000_S4096x1_S4096x10000_1_0_n_n_0_1_110000 : GatherDims S10000x10000 S4096x1 S4096x10000 where
  offsetDims := [1]
  collapsedSliceDims := [0]
  operandBatchingDims := []
  startIndicesBatchingDims := []
  startIndexMap := [0]
  indexVectorDim := 1
  sliceSizes := ![1, 10000]
  wf := gather_S10000x10000_S4096x1_S4096x10000_1_0_n_n_0_1_110000_wf

class Facts : Prop extends Facts₀ where

variable [Facts]
-- ==== Proof.KernelBody.lean ====
/-
  The tile kernel's body and the pipeline's proof data, for any float instance.

  One grid point `t` (of 50) holds in VMEM: rows `200·t … 200·t+199` of the social weights (a [200, 10000] tile), the
  WHOLE user-embedding table ([10000, 64], fetched once), and rows `200·t … 200·t+199` of the same table (a [200, 64]
  tile). The body stores one [200, 64] tile: the matrix product of the first two, narrowed to bf16 and accumulated
  from zero, plus the third. It reads its output tile once before the store; the value read is never used.

  Two of the three input windows read the SAME array (the user table). The array is therefore held in two half
  shares, one per window; reads need no more, and nothing writes it.
-/
import proofs.«150750_j51737176048221_1_alg».proof.Proof.Gen.Kernel.Launch
import proofs.«150750_j51737176048221_1_alg».proof.Proof.Gen.Kernel.Skeleton
import proofs.«150750_j51737176048221_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- No host operation precedes the region: it finds every buffer as launched. -/
abbrev E0 (c : Dev nD) : Valuation τ sig (Elt F) := StableHlo.after (List.flatten ([] : List (List (HloOp τ sig (Elt F))))) (fun b => m (c, b))
/-- The same read at a TensorCore reference. -/
abbrev E (c : Dev nD) (b : Ref sig .tc) : Buf (Elt F) ((c : Thread nD τ).loc b) := E0 m c (Proc.devRef .tc b)

/-- Window `w`'s block at point `t`, read off its array. -/
def tile (c : Dev nD) (w : Fin cfg0.W) (t : Fin cfg0.N) : ((cfg0.win w).xblock (cfg0.grid.coords t)).Idx → Elt F (cfg0.win w).elt :=
  ((cfg0.win w).blk t).view.read (Elt F) (E m c (Pipeline.arrRef spec0 w))

/-! ## What the body stores -/

/-- The three tiles' whole rectangles. -/
abbrev rSw : Rect S200x10000 := Rect.unit (s := S200x10000) ![0, 0] S200x10000.size inb_S200x10000_S200x10000_0_0
abbrev rUe : Rect S10000x64 := Rect.unit (s := S10000x64) ![0, 0] S10000x64.size inb_S10000x64_S10000x64_0_0
abbrev rQ : Rect S200x64 := Rect.unit (s := S200x64) ![0, 0] S200x64.size inb_S200x64_S200x64_0_0

/-- The output tile after the body, from the three input tiles: its one store, over the whole tile. -/
def qTile (sw : Vec F S200x10000 .f32) (ue : Vec F S10000x64 .f32) (ut : Vec F S200x64 .f32) : Vec F S200x64 .f32 :=
  View.canon [⟨rQ, k0_pay1 (View.ld sw rSw) (View.ld ue rUe) (View.ld ut rQ)⟩]

/-- The one store covers the tile. -/
theorem qTile_cover (p0 : Vec F S200x64 .f32) (y : S200x64.Idx) :
    ∃ pc ∈ ([⟨rQ, p0⟩] : List (View.Piece (Elt F) S200x64 .f32)), y ∈ pc.1.set :=
  View.cover_of_tiled [⟨rQ, p0⟩] S200x64.size (by rfl) y

/-! ## The body's triple -/

set_option maxHeartbeats 1000000 in
/-- On whole staging buffers holding the three input tiles (and anything in the output's), the body runs to its
    continuation with the inputs as they were and the output's buffer at `qTile` of them. -/
theorem body_triple (c : Dev nD) (Em : Set ℕ) (i : grid0.Coords)
    (a1 : Memref sig .tc .vmem S200x10000 .f32) (h1 : a1.IsWhole) (a2 : Memref sig .tc .vmem S10000x64 .f32) (h2 : a2.IsWhole)
    (a3 : Memref sig .tc .vmem S200x64 .f32) (h3 : a3.IsWhole) (a4 : Memref sig .tc .vmem S200x64 .f32) (h4 : a4.IsWhole)
    (sw : Vec F S200x10000 .f32) (ue : Vec F S10000x64 .f32) (ut : Vec F S200x64 .f32) (K : PUnit → sProp 𝕄) :
    iprop(owns (c : Thread nD τ) a1 fullShare sw ∗ owns (c : Thread nD τ) a2 fullShare ue ∗ owns (c : Thread nD τ) a3 fullShare ut
        ∗ (∃ d, owns (c : Thread nD τ) a4 fullShare d)
        ∗ (iprop(owns (c : Thread nD τ) a1 fullShare sw ∗ owns (c : Thread nD τ) a2 fullShare ue ∗ owns (c : Thread nD τ) a3 fullShare ut
            ∗ owns (c : Thread nD τ) a4 fullShare (qTile sw ue ut)) -∗ K ⟨⟩))
      ⊢ wp frame (wpE (defs₀ (F := F)) Variants.none c none) Em (cc0__q_kernel i a1 h1 a2 h2 a3 h3 a4 h4) K := by
  simp only [cc0__q_kernel_eq_skeleton]; unfold cc0__q_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (qTile_cover _)

/-! ## The pipeline's proof data -/

/-- The proof data on core `c`: the arrays as launched; after the body at point `t` each input's buffer still at its
    tile and the output's at `qTile` of the three; the invariant the scoped rest and the generator register, untouched;
    nothing owed. The social weights are read at the full share; the user table, read by two windows, at one half each. -/
def dats (_ : Fin 1) (c : Dev nD) : Dat τ (Elt F) Unit ℕ (UR sig nD τ) ℕ cfg0 c where
  A w := E m c (Pipeline.arrRef spec0 w)
  after w t := match w with
    | ⟨0, _⟩ => tile m c 0 t
    | ⟨1, _⟩ => tile m c 1 t
    | ⟨2, _⟩ => tile m c 2 t
    | ⟨3, _⟩ => qTile (tile m c 0 t) (tile m c 1 t) (tile m c 2 t)
  Φ _ := Pipeline.ΦA spec0 c
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = E m c (Pipeline.arrRef spec0 w) := by
  dsimp only [dats]

theorem after_sw (c : Dev nD) (t : Fin cfg0.N) : (dats m 0 c).after 0 t = tile m c 0 t := by dsimp only [dats]
theorem after_ue (c : Dev nD) (t : Fin cfg0.N) : (dats m 0 c).after 1 t = tile m c 1 t := by dsimp only [dats]
theorem after_ut (c : Dev nD) (t : Fin cfg0.N) : (dats m 0 c).after 2 t = tile m c 2 t := by dsimp only [dats]
theorem after_q (c : Dev nD) (t : Fin cfg0.N) :
    (dats m 0 c).after 3 t = qTile (tile m c 0 t) (tile m c 1 t) (tile m c 2 t) := by dsimp only [dats]

/-- Each input's current buffer holds its tile at every point, fetched there or not: the body leaves it in place, and
    where the pipeline does not fetch, the block index has not moved (the whole user table is fetched once). -/
theorem before_sw (c : Dev nD) (t : Fin cfg0.N) (d) : (dats m 0 c).before 0 t d = tile m c 0 t :=
  ((dats m 0 c).before_in_eq_fetched 0 rfl (fun _ => rfl) (fun _ _ _ => rfl)
      (fun t => by rw [after_sw]; unfold Dat.blockOf tile; rw [A_eq]; try rfl) t d).trans
    (by unfold Dat.fetched Dat.blockOf tile; rw [A_eq]; try rfl)
theorem before_ue (c : Dev nD) (t : Fin cfg0.N) (d) : (dats m 0 c).before 1 t d = tile m c 1 t :=
  ((dats m 0 c).before_in_eq_fetched 1 rfl (fun _ => rfl) (fun _ _ _ => rfl)
      (fun t => by rw [after_ue]; unfold Dat.blockOf tile; rw [A_eq]; try rfl) t d).trans
    (by unfold Dat.fetched Dat.blockOf tile; rw [A_eq]; try rfl)
theorem before_ut (c : Dev nD) (t : Fin cfg0.N) (d) : (dats m 0 c).before 2 t d = tile m c 2 t :=
  ((dats m 0 c).before_in_eq_fetched 2 rfl (fun _ => rfl) (fun _ _ _ => rfl)
      (fun t => by rw [after_ut]; unfold Dat.blockOf tile; rw [A_eq]; try rfl) t d).trans
    (by unfold Dat.fetched Dat.blockOf tile; rw [A_eq]; try rfl)

/-! ## The body obligation -/

/-- What the body is called with at point `t`, the windows one by one, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their tiles, so the triple applies; the invariant and what the
    core owes pass through unread. -/
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [before_sw, before_ue, before_ut]
  rw [show (dats m 0 c).Φ t.succ = (dats m 0 c).Φ t.castSucc from rfl,
    show (dats m 0 c).owesAt () t.succ = (dats m 0 c).owesAt () t.castSucc from rfl,
    after_sw, after_ue, after_ut, after_q]
  iintro ⟨HΦ, Ho, ⟨%d0, H0⟩, ⟨%d1, H1⟩, ⟨%d2, H2⟩, ⟨%d3, H3⟩⟩
  iapply (body_triple c Set.univ (grid0.coords t) _ _ _ _ _ _ _ _ (tile m c 0 t) (tile m c 1 t) (tile m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation (c : Dev nD) : BodyObligation (dats (F := F) m 0 c) (defs₀ (F := F)) Variants.none () Set.univ := fun t => by
  rw [bigSep_W0, bigSep_W0]
  exact point_sound m c t

end Cert.Kernel.Tile

end
-- ==== Proof.KernelLaunch.lean ====
/-
  The launch of the one-region program whose user table is read by two windows, and the host lines after the region.

  The region takes from the core's unscoped buffers the three DISTINCT arrays behind its four windows — the social
  weights, the user table, the result table `Q` — each whole. The user table's full share is dealt as its two halves,
  one per window that reads it; at the region's exit the halves are joined again, and the twenty-one host lines that
  follow (two row gathers, a product, a row sum) run over all the unscoped buffers at once: the argument arrays as
  launched and `Q` as the fifty write-backs left it.
-/
import proofs.«150750_j51737176048221_1_alg».proof.Proof.KernelBody

set_option maxRecDepth 16384

noncomputable section

namespace Cert.Kernel.Tile

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main: the region, then the host lines -/

theorem hostTail_fresh : (hostOps1 : List (HloOp τ sig (Elt F))).Forall fun op => op.fresh = ∅ := by
  simp only [List.Forall]; repeat' constructor

/-- @main is the region continued by the host lines, entered at the launch contents. -/
theorem hmain (𝒱₀ : Variants) : Pipeline.HMainK (Ix := Unit) (Name := ℕ) (U := UR sig nD τ) (Lvl := ℕ) cfgs 0 defs₀ 𝒱₀ m (main (F := F)) (E m)
      (fun _ => Pipeline.chain [StableHlo.seq hostOps1]) :=
  Pipeline.hmain_around cfgs 0 defs₀ 𝒱₀ m main [] [hostOps1] (by simp only [List.Forall]) (by simp only [List.Forall]) main_chain

/-! ## The three arrays behind the four windows -/

/-- The distinct arrays of the windows: the social weights, the user table, the result table. -/
theorem arrs_eq : Finset.univ.image (Pipeline.arrRef spec0) = ([main_arg2, main_arg0, main_v0] : List (Ref sig .tc)).toFinset := by decide

/-- The windows' arrays at their shares, one by one. -/
theorem arrays_chain (c : Dev nD) (Fw : (w : Fin cfg0.W) → Buf (Elt F) ((cfg0.win w).arr.view.loc (c.tc : Thread nD τ))) :
    ((dats m 0 c).arrays Fw : sProp 𝕄)
      = iprop((((c.tc : Thread nD τ).loc main_arg2) ↦{fullShare} Fw 0) ∗ (((c.tc : Thread nD τ).loc main_arg0) ↦{fullShare.left} Fw 1)
          ∗ (((c.tc : Thread nD τ).loc main_arg0) ↦{fullShare.right} Fw 2) ∗ (((c.tc : Thread nD τ).loc main_v0) ↦{fullShare} Fw 3)) := by
  unfold Dat.arrays
  rw [bigSep_W0, (arr_whole0 0).set_eq_univ, (arr_whole0 1).set_eq_univ, (arr_whole0 3).set_eq_univ]
  rfl

/-- The buffers behind the arrays, one by one. -/
theorem arrBufs_chain (c : Dev nD) (Vb : (b : Ref sig .tc) → Buf (Elt F) ((c.tc : Thread nD τ).loc b)) :
    (Pipeline.arrBufs spec0 c Vb : sProp 𝕄)
      = iprop((((c.tc : Thread nD τ).loc main_arg2) ↦{fullShare} Vb main_arg2) ∗ (((c.tc : Thread nD τ).loc main_arg0) ↦{fullShare} Vb main_arg0)
          ∗ (((c.tc : Thread nD τ).loc main_v0) ↦{fullShare} Vb main_v0)) :=
  bigSep_eq_bigSepL_of_eq [main_arg2, main_arg0, main_v0] arrs_eq (by decide) _

/-- The buffers behind the arrays, each whole at the full share, ARE the windows' arrays at their shares, where the
    contents agree: the user table's full share is its two halves. -/
theorem bufs_iff_arrays (c : Dev nD) (Vb : (b : Ref sig .tc) → Buf (Elt F) ((c.tc : Thread nD τ).loc b))
    (Fw : (w : Fin cfg0.W) → Buf (Elt F) ((cfg0.win w).arr.view.loc (c.tc : Thread nD τ)))
    (h0 : Fw 0 = Vb main_arg2) (h1 : Fw 1 = Vb main_arg0) (h2 : Fw 2 = Vb main_arg0) (h3 : Fw 3 = Vb main_v0) :
    (Pipeline.arrBufs spec0 c Vb : sProp 𝕄) ⊣⊢ (dats m 0 c).arrays Fw := by
  rw [arrays_chain, h0, h1, h2, h3, arrBufs_chain]
  exact Laws.sep_congr_right ((Laws.sep_congr_left (pointsTo_share (PosShare.mem_left_op_right fullShare))).trans Laws.sep_assoc)

/-! ## The buffers at the region's exit and after the host lines -/

/-- Core `c`'s buffers at the region's exit: as launched, but the result table as the fifty write-backs left it. -/
def exitVal (c : Dev nD) : Valuation τ sig (Elt F) :=
  Function.update (E0 m c) (Proc.devRef .tc main_v0) ((dats m 0 c).arrAt 3 cfg0.N)

/-- And after the host lines. -/
def endVal (c : Dev nD) : Valuation τ sig (Elt F) := StableHlo.after hostOps1 (exitVal m c)

/-- At the exit the input arrays hold what was launched (they are never written back), -/
theorem exit_sw (c : Dev nD) : exitVal m c (Proc.devRef .tc main_arg2) = (dats m 0 c).arrAt 0 cfg0.N := by
  unfold exitVal
  rw [Function.update_of_ne (StableHlo.devRef_ne_of_ne (by decide)), (dats m 0 c).arrAt_in 0 rfl, A_eq]
theorem exit_ue (c : Dev nD) : exitVal m c (Proc.devRef .tc main_arg0) = (dats m 0 c).arrAt 1 cfg0.N := by
  unfold exitVal
  rw [Function.update_of_ne (StableHlo.devRef_ne_of_ne (by decide)), (dats m 0 c).arrAt_in 1 rfl, A_eq]
theorem exit_ut (c : Dev nD) : exitVal m c (Proc.devRef .tc main_arg0) = (dats m 0 c).arrAt 2 cfg0.N := by
  unfold exitVal
  rw [Function.update_of_ne (StableHlo.devRef_ne_of_ne (by decide)), (dats m 0 c).arrAt_in 2 rfl, A_eq]
/-- and the result table what the write-backs left. -/
theorem exit_q (c : Dev nD) : exitVal m c (Proc.devRef .tc main_v0) = (dats m 0 c).arrAt 3 cfg0.N := by
  unfold exitVal
  rw [Function.update_self]

/-- Any buffer that is no window's array is, at the exit, as launched. -/
theorem exit_rest (c : Dev nD) (b : Ref sig .tc) (hb : b ≠ main_v0) : exitVal m c (Proc.devRef .tc b) = E m c b := by
  unfold exitVal
  rw [Function.update_of_ne (StableHlo.devRef_ne_of_ne hb)]

/-- No host line writes an argument array or the result table: each writes only its own result buffer. -/
theorem tail_keeps (b : Ref sig .tc)
    (hb : b = main_arg0 ∨ b = main_arg1 ∨ b = main_arg2 ∨ b = main_arg3 ∨ b = main_arg4 ∨ b = main_v0) (W : Valuation τ sig (Elt F)) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes,
      StableHlo.ternary_writes, Finset.mem_singleton]
    rcases hb with rfl | rfl | rfl | rfl | rfl | rfl
    all_goals repeat' apply And.intro
    all_goals exact StableHlo.devRef_ne_of_ne (by decide)))

/-- The unscoped buffers held at a valuation `W` that has each window's array at what the pipeline left are the
    windows' arrays at their shares and the bypassing buffers at `W`. -/
theorem held_iff (c : Dev nD) (W : Valuation τ sig (Elt F))
    (h0 : W (Proc.devRef .tc main_arg2) = (dats m 0 c).arrAt 0 cfg0.N) (h1 : W (Proc.devRef .tc main_arg0) = (dats m 0 c).arrAt 1 cfg0.N)
    (h2 : W (Proc.devRef .tc main_arg0) = (dats m 0 c).arrAt 2 cfg0.N) (h3 : W (Proc.devRef .tc main_v0) = (dats m 0 c).arrAt 3 cfg0.N) :
    (StableHlo.held (c.tc : Thread nD τ) (Pipeline.ucRefs τ sig) W : sProp 𝕄)
      ⊣⊢ iprop((dats m 0 c).arrays ((dats m 0 c).arrAt · cfg0.N) ∗ Pipeline.unscopedRest spec0 c (fun b => W (Proc.devRef .tc b))) := by
  rw [← Pipeline.unscopedBufs_held (Ix := Unit) (Name := ℕ) (U := UR sig nD τ) (Lvl := ℕ) c W,
    Pipeline.unscopedBufs_split₀ cfgs 0 winFacts₀0.arr_unscoped c]
  have h := bufs_iff_arrays m c (fun b => W (Proc.devRef .tc b)) ((dats m 0 c).arrAt · cfg0.N) h0.symm h1.symm h2.symm h3.symm
  exact Laws.sep_congr_left h

/-! ## The host lines, run from the region's exit -/

theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostTail_fresh) op hop

/-- From the region's exit — its boundary, the windows' arrays at their shares, the bypassing buffers as launched — the
    host lines run over ALL the unscoped buffers (the user table's halves joined), and hand back the arrays at their
    shares again (no line writes one) and the bypassing buffers at the lines' results. -/
theorem tail_run (c : Dev nD) (Q' : PUnit → sProp 𝕄) :
    iprop((iprop((dats m 0 c).arrays ((dats m 0 c).arrAt · cfg0.N) ∗ Pipeline.unscopedRest spec0 c (fun b => endVal m c (Proc.devRef .tc b))) -∗ Q' ⟨⟩)
        ∗ boundary (c.tc : Thread nD τ) ∗ (dats m 0 c).arrays ((dats m 0 c).arrAt · cfg0.N) ∗ Pipeline.unscopedRest spec0 c (E m c))
      ⊢ wp frame (wpE (Pipeline.defs (fun q => (cfgs q).toPCfg (Val := Elt F)) (defs₀ (F := F))) (Variants.lift Variants.none) (c.tc : Thread nD τ) none)
          Set.univ (Pipeline.chain [StableHlo.seq hostOps1]) Q' := by
  have hrest : (Pipeline.unscopedRest spec0 c (E m c) : sProp 𝕄) = Pipeline.unscopedRest spec0 c (fun b => exitVal m c (Proc.devRef .tc b)) := by
    unfold Pipeline.unscopedRest
    exact bigSep_congr fun b hb => by
      dsimp only
      rw [exit_rest m c b (fun e => (Finset.mem_sdiff.mp hb).2 (Finset.mem_image.mpr ⟨3, Finset.mem_univ _, e.symm⟩))]
  have hin := held_iff m c (exitVal m c) (exit_sw m c) (exit_ue m c) (exit_ut m c) (exit_q m c)
  have hout := held_iff m c (endVal m c)
    (by unfold endVal; rw [tail_keeps _ (.inr (.inr (.inl rfl))), exit_sw]) (by unfold endVal; rw [tail_keeps _ (.inl rfl), exit_ue])
    (by unfold endVal; rw [tail_keeps _ (.inl rfl), exit_ut]) (by unfold endVal; rw [tail_keeps _ (.inr (.inr (.inr (.inr (.inr rfl))))), exit_q])
  rw [hrest, show Pipeline.chain [StableHlo.seq (hostOps1 (F := F))] = Pipeline.chain (([hostOps1].map StableHlo.seq) ++ []) from rfl]
  iintro ⟨Hk, Hb, Ha, Hz⟩
  ihave Hh := hin.2 $$ [Ha Hz]
  · isplitl [Ha] <;> iassumption
  iapply (Pipeline.wp_seqs_then (fun q => (cfgs q).toPCfg (Val := Elt F)) (defs₀ (F := F)) Variants.none c (Pipeline.ucRefs τ sig) [] [hostOps1]
    tail_sub tail_fresh (exitVal m c)) $$ [Hb Hh]
  · isplitl [Hb] <;> iassumption
  iintro Hb
  rw [Pipeline.chain_nil, wp_pure]
  imodintro
  iapply Hk
  icases Hb with ⟨-, H⟩
  simp only [List.flatten_cons, List.flatten_nil, List.append_nil]
  iapply hout.1
  iexact H

/-! ## The run and the frame -/

set_option backward.isDefEq.respectTransparency.types false in
/-- At the compiled mesh, for any values, from any memory with zero counters: every weakly fair execution of @main
    terminates, and at the end every window's array holds what the pipeline left there and every other unscoped buffer
    what the host lines computed from the region's exit. -/
theorem run_main : θ_run (defs (F := F)) (onTc (τ := τ) (main (F := F))) (s₀ m ρ)
    (Pipeline.FramePost cfgs (dats m) 0 (fun c b => endVal m c (Proc.devRef .tc b))) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp))
    (u₀ := Rounds.initOf (Pipeline.cells cfgs cellOf_inj) (Pipeline.launchToks cfgs cellOf_inj))
    (hu₀ := by
      iintro Hu; imodintro
      isplitl [Hu]
      · iapply (show (ownU _ : sProp 𝕄) ⊢ BI.own (emb₁ (Rounds.initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (V := E m) (hmain := hmain m Variants.none)
    (hsplit := fun c => (bufs_iff_arrays m c (E m c) ((dats m 0 c).arrAt · 0) (A_eq m c 0) (A_eq m c 1) (A_eq m c 2) (A_eq m c 3)).1)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (E m c))
    (Z' := fun c => Pipeline.unscopedRestP (Ix := Unit) (Name := ℕ) (U := UR sig nD τ) (Lvl := ℕ) Pipeline.Prefetch.none spec0 c
      (fun b => endVal m c (Proc.devRef .tc b)))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA
      iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => by
      rw [Pipeline.unscopedRestP_none, Pipeline.unscopedRestP_none]
      exact tail_run m c Q')
    (QY := fun c s => ∀ b ∈ Pipeline.restRefsP sig Pipeline.Prefetch.none spec0,
      s.mem ((c.tc : Thread nD τ).loc b) = endVal m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b)
        (fun b => endVal m c (Proc.devRef .tc b)) s')
      isplitl [HU] <;> iassumption)
    (hQ := fun s h c => ⟨(h c).1, Pipeline.rest_of_restP Pipeline.Prefetch.none spec0 _ c (fun b => endVal m c (Proc.devRef .tc b)) s
      (fun k => k.elim0) (h c).2.1 (h c).2.2⟩)

/-- A buffer the host lines never write, other than the result table, ends as launched. -/
theorem end_arg (c : Dev nD) (b : Ref sig .tc) (hb : b = main_arg0 ∨ b = main_arg1 ∨ b = main_arg2 ∨ b = main_arg3 ∨ b = main_arg4)
    : endVal m c (Proc.devRef .tc b) = m ((c.tc : Thread nD τ).loc b) := by
  unfold endVal
  rw [tail_keeps b (by rcases hb with h | h | h | h | h <;> simp [h]), exit_rest m c b (by rcases hb with rfl | rfl | rfl | rfl | rfl <;> decide)]
  rfl

/-- THE FRAME: every weakly fair execution terminates and the five argument arrays end as launched — the two the
    windows read by the library's account of an input window's array, the three that bypass the region by the host
    lines never writing them. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).1 1).trans (((dats m 0 c).arrAt_in 1 rfl cfg0.N).trans (A_eq m c 1)),
     ((h c).2 main_arg1 (Pipeline.mem_restRefs_of main_arg1 (by decide) (by decide))).trans (end_arg m c main_arg1 (by simp)),
     ((h c).1 0).trans (((dats m 0 c).arrAt_in 0 rfl cfg0.N).trans (A_eq m c 0)),
     ((h c).2 main_arg3 (Pipeline.mem_restRefs_of main_arg3 (by decide) (by decide))).trans (end_arg m c main_arg3 (by simp)),
     ((h c).2 main_arg4 (Pipeline.mem_restRefs_of main_arg4 (by decide) (by decide))).trans (end_arg m c main_arg4 (by simp))⟩)
    (run_main m ρ)

end Cert.Kernel.Tile

end
-- ==== Proof.KernelIdealBody.lean ====
/-
  The tile kernel's body and the pipeline's proof data, for any float instance.

  One grid point `t` (of 50) holds in VMEM: rows `200·t … 200·t+199` of the social weights (a [200, 10000] tile), the
  WHOLE user-embedding table ([10000, 64], fetched once), and rows `200·t … 200·t+199` of the same table (a [200, 64]
  tile). The body stores one [200, 64] tile: the matrix product of the first two, narrowed to bf16 and accumulated
  from zero, plus the third. It reads its output tile once before the store; the value read is never used.

  Two of the three input windows read the SAME array (the user table). The array is therefore held in two half
  shares, one per window; reads need no more, and nothing writes it.
-/
import proofs.«150750_j51737176048221_1_alg».proof.Proof.Gen.KernelIdeal.Launch
import proofs.«150750_j51737176048221_1_alg».proof.Proof.Gen.KernelIdeal.Skeleton
import proofs.«150750_j51737176048221_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- No host operation precedes the region: it finds every buffer as launched. -/
abbrev E0 (c : Dev nD) : Valuation τ sig (Elt F) := StableHlo.after (List.flatten ([] : List (List (HloOp τ sig (Elt F))))) (fun b => m (c, b))
/-- The same read at a TensorCore reference. -/
abbrev E (c : Dev nD) (b : Ref sig .tc) : Buf (Elt F) ((c : Thread nD τ).loc b) := E0 m c (Proc.devRef .tc b)

/-- Window `w`'s block at point `t`, read off its array. -/
def tile (c : Dev nD) (w : Fin cfg0.W) (t : Fin cfg0.N) : ((cfg0.win w).xblock (cfg0.grid.coords t)).Idx → Elt F (cfg0.win w).elt :=
  ((cfg0.win w).blk t).view.read (Elt F) (E m c (Pipeline.arrRef spec0 w))

/-! ## What the body stores -/

/-- The three tiles' whole rectangles. -/
abbrev rSw : Rect S200x10000 := Rect.unit (s := S200x10000) ![0, 0] S200x10000.size inb_S200x10000_S200x10000_0_0
abbrev rUe : Rect S10000x64 := Rect.unit (s := S10000x64) ![0, 0] S10000x64.size inb_S10000x64_S10000x64_0_0
abbrev rQ : Rect S200x64 := Rect.unit (s := S200x64) ![0, 0] S200x64.size inb_S200x64_S200x64_0_0

/-- The output tile after the body, from the three input tiles: its one store, over the whole tile. -/
def qTile (sw : Vec F S200x10000 .f32) (ue : Vec F S10000x64 .f32) (ut : Vec F S200x64 .f32) : Vec F S200x64 .f32 :=
  View.canon [⟨rQ, k0_pay1 (View.ld sw rSw) (View.ld ue rUe) (View.ld ut rQ)⟩]

/-- The one store covers the tile. -/
theorem qTile_cover (p0 : Vec F S200x64 .f32) (y : S200x64.Idx) :
    ∃ pc ∈ ([⟨rQ, p0⟩] : List (View.Piece (Elt F) S200x64 .f32)), y ∈ pc.1.set :=
  View.cover_of_tiled [⟨rQ, p0⟩] S200x64.size (by rfl) y

/-! ## The body's triple -/

set_option maxHeartbeats 1000000 in
/-- On whole staging buffers holding the three input tiles (and anything in the output's), the body runs to its
    continuation with the inputs as they were and the output's buffer at `qTile` of them. -/
theorem body_triple (c : Dev nD) (Em : Set ℕ) (i : grid0.Coords)
    (a1 : Memref sig .tc .vmem S200x10000 .f32) (h1 : a1.IsWhole) (a2 : Memref sig .tc .vmem S10000x64 .f32) (h2 : a2.IsWhole)
    (a3 : Memref sig .tc .vmem S200x64 .f32) (h3 : a3.IsWhole) (a4 : Memref sig .tc .vmem S200x64 .f32) (h4 : a4.IsWhole)
    (sw : Vec F S200x10000 .f32) (ue : Vec F S10000x64 .f32) (ut : Vec F S200x64 .f32) (K : PUnit → sProp 𝕄) :
    iprop(owns (c : Thread nD τ) a1 fullShare sw ∗ owns (c : Thread nD τ) a2 fullShare ue ∗ owns (c : Thread nD τ) a3 fullShare ut
        ∗ (∃ d, owns (c : Thread nD τ) a4 fullShare d)
        ∗ (iprop(owns (c : Thread nD τ) a1 fullShare sw ∗ owns (c : Thread nD τ) a2 fullShare ue ∗ owns (c : Thread nD τ) a3 fullShare ut
            ∗ owns (c : Thread nD τ) a4 fullShare (qTile sw ue ut)) -∗ K ⟨⟩))
      ⊢ wp frame (wpE (defs₀ (F := F)) Variants.none c none) Em (cc0__q_kernel i a1 h1 a2 h2 a3 h3 a4 h4) K := by
  simp only [cc0__q_kernel_eq_skeleton]; unfold cc0__q_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (qTile_cover _)

/-! ## The pipeline's proof data -/

/-- The proof data on core `c`: the arrays as launched; after the body at point `t` each input's buffer still at its
    tile and the output's at `qTile` of the three; the invariant the scoped rest and the generator register, untouched;
    nothing owed. The social weights are read at the full share; the user table, read by two windows, at one half each. -/
def dats (_ : Fin 1) (c : Dev nD) : Dat τ (Elt F) Unit ℕ (UR sig nD τ) ℕ cfg0 c where
  A w := E m c (Pipeline.arrRef spec0 w)
  after w t := match w with
    | ⟨0, _⟩ => tile m c 0 t
    | ⟨1, _⟩ => tile m c 1 t
    | ⟨2, _⟩ => tile m c 2 t
    | ⟨3, _⟩ => qTile (tile m c 0 t) (tile m c 1 t) (tile m c 2 t)
  Φ _ := Pipeline.ΦA spec0 c
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = E m c (Pipeline.arrRef spec0 w) := by
  dsimp only [dats]

theorem after_sw (c : Dev nD) (t : Fin cfg0.N) : (dats m 0 c).after 0 t = tile m c 0 t := by dsimp only [dats]
theorem after_ue (c : Dev nD) (t : Fin cfg0.N) : (dats m 0 c).after 1 t = tile m c 1 t := by dsimp only [dats]
theorem after_ut (c : Dev nD) (t : Fin cfg0.N) : (dats m 0 c).after 2 t = tile m c 2 t := by dsimp only [dats]
theorem after_q (c : Dev nD) (t : Fin cfg0.N) :
    (dats m 0 c).after 3 t = qTile (tile m c 0 t) (tile m c 1 t) (tile m c 2 t) := by dsimp only [dats]

/-- Each input's current buffer holds its tile at every point, fetched there or not: the body leaves it in place, and
    where the pipeline does not fetch, the block index has not moved (the whole user table is fetched once). -/
theorem before_sw (c : Dev nD) (t : Fin cfg0.N) (d) : (dats m 0 c).before 0 t d = tile m c 0 t :=
  ((dats m 0 c).before_in_eq_fetched 0 rfl (fun _ => rfl) (fun _ _ _ => rfl)
      (fun t => by rw [after_sw]; unfold Dat.blockOf tile; rw [A_eq]; try rfl) t d).trans
    (by unfold Dat.fetched Dat.blockOf tile; rw [A_eq]; try rfl)
theorem before_ue (c : Dev nD) (t : Fin cfg0.N) (d) : (dats m 0 c).before 1 t d = tile m c 1 t :=
  ((dats m 0 c).before_in_eq_fetched 1 rfl (fun _ => rfl) (fun _ _ _ => rfl)
      (fun t => by rw [after_ue]; unfold Dat.blockOf tile; rw [A_eq]; try rfl) t d).trans
    (by unfold Dat.fetched Dat.blockOf tile; rw [A_eq]; try rfl)
theorem before_ut (c : Dev nD) (t : Fin cfg0.N) (d) : (dats m 0 c).before 2 t d = tile m c 2 t :=
  ((dats m 0 c).before_in_eq_fetched 2 rfl (fun _ => rfl) (fun _ _ _ => rfl)
      (fun t => by rw [after_ut]; unfold Dat.blockOf tile; rw [A_eq]; try rfl) t d).trans
    (by unfold Dat.fetched Dat.blockOf tile; rw [A_eq]; try rfl)

/-! ## The body obligation -/

/-- What the body is called with at point `t`, the windows one by one, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their tiles, so the triple applies; the invariant and what the
    core owes pass through unread. -/
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [before_sw, before_ue, before_ut]
  rw [show (dats m 0 c).Φ t.succ = (dats m 0 c).Φ t.castSucc from rfl,
    show (dats m 0 c).owesAt () t.succ = (dats m 0 c).owesAt () t.castSucc from rfl,
    after_sw, after_ue, after_ut, after_q]
  iintro ⟨HΦ, Ho, ⟨%d0, H0⟩, ⟨%d1, H1⟩, ⟨%d2, H2⟩, ⟨%d3, H3⟩⟩
  iapply (body_triple c Set.univ (grid0.coords t) _ _ _ _ _ _ _ _ (tile m c 0 t) (tile m c 1 t) (tile m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation (c : Dev nD) : BodyObligation (dats (F := F) m 0 c) (defs₀ (F := F)) Variants.none () Set.univ := fun t => by
  rw [bigSep_W0, bigSep_W0]
  exact point_sound m c t

end Cert.KernelIdeal.Tile

end
-- ==== Proof.KernelIdealLaunch.lean ====
/-
  The launch of the one-region program whose user table is read by two windows, and the host lines after the region.

  The region takes from the core's unscoped buffers the three DISTINCT arrays behind its four windows — the social
  weights, the user table, the result table `Q` — each whole. The user table's full share is dealt as its two halves,
  one per window that reads it; at the region's exit the halves are joined again, and the twenty-one host lines that
  follow (two row gathers, a product, a row sum) run over all the unscoped buffers at once: the argument arrays as
  launched and `Q` as the fifty write-backs left it.
-/
import proofs.«150750_j51737176048221_1_alg».proof.Proof.KernelIdealBody

set_option maxRecDepth 16384

noncomputable section

namespace Cert.KernelIdeal.Tile

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main: the region, then the host lines -/

theorem hostTail_fresh : (hostOps1 : List (HloOp τ sig (Elt F))).Forall fun op => op.fresh = ∅ := by
  simp only [List.Forall]; repeat' constructor

/-- @main is the region continued by the host lines, entered at the launch contents. -/
theorem hmain (𝒱₀ : Variants) : Pipeline.HMainK (Ix := Unit) (Name := ℕ) (U := UR sig nD τ) (Lvl := ℕ) cfgs 0 defs₀ 𝒱₀ m (main (F := F)) (E m)
      (fun _ => Pipeline.chain [StableHlo.seq hostOps1]) :=
  Pipeline.hmain_around cfgs 0 defs₀ 𝒱₀ m main [] [hostOps1] (by simp only [List.Forall]) (by simp only [List.Forall]) main_chain

/-! ## The three arrays behind the four windows -/

/-- The distinct arrays of the windows: the social weights, the user table, the result table. -/
theorem arrs_eq : Finset.univ.image (Pipeline.arrRef spec0) = ([main_arg2, main_arg0, main_v0] : List (Ref sig .tc)).toFinset := by decide

/-- The windows' arrays at their shares, one by one. -/
theorem arrays_chain (c : Dev nD) (Fw : (w : Fin cfg0.W) → Buf (Elt F) ((cfg0.win w).arr.view.loc (c.tc : Thread nD τ))) :
    ((dats m 0 c).arrays Fw : sProp 𝕄)
      = iprop((((c.tc : Thread nD τ).loc main_arg2) ↦{fullShare} Fw 0) ∗ (((c.tc : Thread nD τ).loc main_arg0) ↦{fullShare.left} Fw 1)
          ∗ (((c.tc : Thread nD τ).loc main_arg0) ↦{fullShare.right} Fw 2) ∗ (((c.tc : Thread nD τ).loc main_v0) ↦{fullShare} Fw 3)) := by
  unfold Dat.arrays
  rw [bigSep_W0, (arr_whole0 0).set_eq_univ, (arr_whole0 1).set_eq_univ, (arr_whole0 3).set_eq_univ]
  rfl

/-- The buffers behind the arrays, one by one. -/
theorem arrBufs_chain (c : Dev nD) (Vb : (b : Ref sig .tc) → Buf (Elt F) ((c.tc : Thread nD τ).loc b)) :
    (Pipeline.arrBufs spec0 c Vb : sProp 𝕄)
      = iprop((((c.tc : Thread nD τ).loc main_arg2) ↦{fullShare} Vb main_arg2) ∗ (((c.tc : Thread nD τ).loc main_arg0) ↦{fullShare} Vb main_arg0)
          ∗ (((c.tc : Thread nD τ).loc main_v0) ↦{fullShare} Vb main_v0)) :=
  bigSep_eq_bigSepL_of_eq [main_arg2, main_arg0, main_v0] arrs_eq (by decide) _

/-- The buffers behind the arrays, each whole at the full share, ARE the windows' arrays at their shares, where the
    contents agree: the user table's full share is its two halves. -/
theorem bufs_iff_arrays (c : Dev nD) (Vb : (b : Ref sig .tc) → Buf (Elt F) ((c.tc : Thread nD τ).loc b))
    (Fw : (w : Fin cfg0.W) → Buf (Elt F) ((cfg0.win w).arr.view.loc (c.tc : Thread nD τ)))
    (h0 : Fw 0 = Vb main_arg2) (h1 : Fw 1 = Vb main_arg0) (h2 : Fw 2 = Vb main_arg0) (h3 : Fw 3 = Vb main_v0) :
    (Pipeline.arrBufs spec0 c Vb : sProp 𝕄) ⊣⊢ (dats m 0 c).arrays Fw := by
  rw [arrays_chain, h0, h1, h2, h3, arrBufs_chain]
  exact Laws.sep_congr_right ((Laws.sep_congr_left (pointsTo_share (PosShare.mem_left_op_right fullShare))).trans Laws.sep_assoc)

/-! ## The buffers at the region's exit and after the host lines -/

/-- Core `c`'s buffers at the region's exit: as launched, but the result table as the fifty write-backs left it. -/
def exitVal (c : Dev nD) : Valuation τ sig (Elt F) :=
  Function.update (E0 m c) (Proc.devRef .tc main_v0) ((dats m 0 c).arrAt 3 cfg0.N)

/-- And after the host lines. -/
def endVal (c : Dev nD) : Valuation τ sig (Elt F) := StableHlo.after hostOps1 (exitVal m c)

/-- At the exit the input arrays hold what was launched (they are never written back), -/
theorem exit_sw (c : Dev nD) : exitVal m c (Proc.devRef .tc main_arg2) = (dats m 0 c).arrAt 0 cfg0.N := by
  unfold exitVal
  rw [Function.update_of_ne (StableHlo.devRef_ne_of_ne (by decide)), (dats m 0 c).arrAt_in 0 rfl, A_eq]
theorem exit_ue (c : Dev nD) : exitVal m c (Proc.devRef .tc main_arg0) = (dats m 0 c).arrAt 1 cfg0.N := by
  unfold exitVal
  rw [Function.update_of_ne (StableHlo.devRef_ne_of_ne (by decide)), (dats m 0 c).arrAt_in 1 rfl, A_eq]
theorem exit_ut (c : Dev nD) : exitVal m c (Proc.devRef .tc main_arg0) = (dats m 0 c).arrAt 2 cfg0.N := by
  unfold exitVal
  rw [Function.update_of_ne (StableHlo.devRef_ne_of_ne (by decide)), (dats m 0 c).arrAt_in 2 rfl, A_eq]
/-- and the result table what the write-backs left. -/
theorem exit_q (c : Dev nD) : exitVal m c (Proc.devRef .tc main_v0) = (dats m 0 c).arrAt 3 cfg0.N := by
  unfold exitVal
  rw [Function.update_self]

/-- Any buffer that is no window's array is, at the exit, as launched. -/
theorem exit_rest (c : Dev nD) (b : Ref sig .tc) (hb : b ≠ main_v0) : exitVal m c (Proc.devRef .tc b) = E m c b := by
  unfold exitVal
  rw [Function.update_of_ne (StableHlo.devRef_ne_of_ne hb)]

/-- No host line writes an argument array or the result table: each writes only its own result buffer. -/
theorem tail_keeps (b : Ref sig .tc)
    (hb : b = main_arg0 ∨ b = main_arg1 ∨ b = main_arg2 ∨ b = main_arg3 ∨ b = main_arg4 ∨ b = main_v0) (W : Valuation τ sig (Elt F)) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes,
      StableHlo.ternary_writes, Finset.mem_singleton]
    rcases hb with rfl | rfl | rfl | rfl | rfl | rfl
    all_goals repeat' apply And.intro
    all_goals exact StableHlo.devRef_ne_of_ne (by decide)))

/-- The unscoped buffers held at a valuation `W` that has each window's array at what the pipeline left are the
    windows' arrays at their shares and the bypassing buffers at `W`. -/
theorem held_iff (c : Dev nD) (W : Valuation τ sig (Elt F))
    (h0 : W (Proc.devRef .tc main_arg2) = (dats m 0 c).arrAt 0 cfg0.N) (h1 : W (Proc.devRef .tc main_arg0) = (dats m 0 c).arrAt 1 cfg0.N)
    (h2 : W (Proc.devRef .tc main_arg0) = (dats m 0 c).arrAt 2 cfg0.N) (h3 : W (Proc.devRef .tc main_v0) = (dats m 0 c).arrAt 3 cfg0.N) :
    (StableHlo.held (c.tc : Thread nD τ) (Pipeline.ucRefs τ sig) W : sProp 𝕄)
      ⊣⊢ iprop((dats m 0 c).arrays ((dats m 0 c).arrAt · cfg0.N) ∗ Pipeline.unscopedRest spec0 c (fun b => W (Proc.devRef .tc b))) := by
  rw [← Pipeline.unscopedBufs_held (Ix := Unit) (Name := ℕ) (U := UR sig nD τ) (Lvl := ℕ) c W,
    Pipeline.unscopedBufs_split₀ cfgs 0 winFacts₀0.arr_unscoped c]
  have h := bufs_iff_arrays m c (fun b => W (Proc.devRef .tc b)) ((dats m 0 c).arrAt · cfg0.N) h0.symm h1.symm h2.symm h3.symm
  exact Laws.sep_congr_left h

/-! ## The host lines, run from the region's exit -/

theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostTail_fresh) op hop

/-- From the region's exit — its boundary, the windows' arrays at their shares, the bypassing buffers as launched — the
    host lines run over ALL the unscoped buffers (the user table's halves joined), and hand back the arrays at their
    shares again (no line writes one) and the bypassing buffers at the lines' results. -/
theorem tail_run (c : Dev nD) (Q' : PUnit → sProp 𝕄) :
    iprop((iprop((dats m 0 c).arrays ((dats m 0 c).arrAt · cfg0.N) ∗ Pipeline.unscopedRest spec0 c (fun b => endVal m c (Proc.devRef .tc b))) -∗ Q' ⟨⟩)
        ∗ boundary (c.tc : Thread nD τ) ∗ (dats m 0 c).arrays ((dats m 0 c).arrAt · cfg0.N) ∗ Pipeline.unscopedRest spec0 c (E m c))
      ⊢ wp frame (wpE (Pipeline.defs (fun q => (cfgs q).toPCfg (Val := Elt F)) (defs₀ (F := F))) (Variants.lift Variants.none) (c.tc : Thread nD τ) none)
          Set.univ (Pipeline.chain [StableHlo.seq hostOps1]) Q' := by
  have hrest : (Pipeline.unscopedRest spec0 c (E m c) : sProp 𝕄) = Pipeline.unscopedRest spec0 c (fun b => exitVal m c (Proc.devRef .tc b)) := by
    unfold Pipeline.unscopedRest
    exact bigSep_congr fun b hb => by
      dsimp only
      rw [exit_rest m c b (fun e => (Finset.mem_sdiff.mp hb).2 (Finset.mem_image.mpr ⟨3, Finset.mem_univ _, e.symm⟩))]
  have hin := held_iff m c (exitVal m c) (exit_sw m c) (exit_ue m c) (exit_ut m c) (exit_q m c)
  have hout := held_iff m c (endVal m c)
    (by unfold endVal; rw [tail_keeps _ (.inr (.inr (.inl rfl))), exit_sw]) (by unfold endVal; rw [tail_keeps _ (.inl rfl), exit_ue])
    (by unfold endVal; rw [tail_keeps _ (.inl rfl), exit_ut]) (by unfold endVal; rw [tail_keeps _ (.inr (.inr (.inr (.inr (.inr rfl))))), exit_q])
  rw [hrest, show Pipeline.chain [StableHlo.seq (hostOps1 (F := F))] = Pipeline.chain (([hostOps1].map StableHlo.seq) ++ []) from rfl]
  iintro ⟨Hk, Hb, Ha, Hz⟩
  ihave Hh := hin.2 $$ [Ha Hz]
  · isplitl [Ha] <;> iassumption
  iapply (Pipeline.wp_seqs_then (fun q => (cfgs q).toPCfg (Val := Elt F)) (defs₀ (F := F)) Variants.none c (Pipeline.ucRefs τ sig) [] [hostOps1]
    tail_sub tail_fresh (exitVal m c)) $$ [Hb Hh]
  · isplitl [Hb] <;> iassumption
  iintro Hb
  rw [Pipeline.chain_nil, wp_pure]
  imodintro
  iapply Hk
  icases Hb with ⟨-, H⟩
  simp only [List.flatten_cons, List.flatten_nil, List.append_nil]
  iapply hout.1
  iexact H

/-! ## The run and the frame -/

set_option backward.isDefEq.respectTransparency.types false in
/-- At the compiled mesh, for any values, from any memory with zero counters: every weakly fair execution of @main
    terminates, and at the end every window's array holds what the pipeline left there and every other unscoped buffer
    what the host lines computed from the region's exit. -/
theorem run_main : θ_run (defs (F := F)) (onTc (τ := τ) (main (F := F))) (s₀ m ρ)
    (Pipeline.FramePost cfgs (dats m) 0 (fun c b => endVal m c (Proc.devRef .tc b))) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp))
    (u₀ := Rounds.initOf (Pipeline.cells cfgs cellOf_inj) (Pipeline.launchToks cfgs cellOf_inj))
    (hu₀ := by
      iintro Hu; imodintro
      isplitl [Hu]
      · iapply (show (ownU _ : sProp 𝕄) ⊢ BI.own (emb₁ (Rounds.initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (V := E m) (hmain := hmain m Variants.none)
    (hsplit := fun c => (bufs_iff_arrays m c (E m c) ((dats m 0 c).arrAt · 0) (A_eq m c 0) (A_eq m c 1) (A_eq m c 2) (A_eq m c 3)).1)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (E m c))
    (Z' := fun c => Pipeline.unscopedRestP (Ix := Unit) (Name := ℕ) (U := UR sig nD τ) (Lvl := ℕ) Pipeline.Prefetch.none spec0 c
      (fun b => endVal m c (Proc.devRef .tc b)))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA
      iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => by
      rw [Pipeline.unscopedRestP_none, Pipeline.unscopedRestP_none]
      exact tail_run m c Q')
    (QY := fun c s => ∀ b ∈ Pipeline.restRefsP sig Pipeline.Prefetch.none spec0,
      s.mem ((c.tc : Thread nD τ).loc b) = endVal m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b)
        (fun b => endVal m c (Proc.devRef .tc b)) s')
      isplitl [HU] <;> iassumption)
    (hQ := fun s h c => ⟨(h c).1, Pipeline.rest_of_restP Pipeline.Prefetch.none spec0 _ c (fun b => endVal m c (Proc.devRef .tc b)) s
      (fun k => k.elim0) (h c).2.1 (h c).2.2⟩)

/-- A buffer the host lines never write, other than the result table, ends as launched. -/
theorem end_arg (c : Dev nD) (b : Ref sig .tc) (hb : b = main_arg0 ∨ b = main_arg1 ∨ b = main_arg2 ∨ b = main_arg3 ∨ b = main_arg4)
    : endVal m c (Proc.devRef .tc b) = m ((c.tc : Thread nD τ).loc b) := by
  unfold endVal
  rw [tail_keeps b (by rcases hb with h | h | h | h | h <;> simp [h]), exit_rest m c b (by rcases hb with rfl | rfl | rfl | rfl | rfl <;> decide)]
  rfl

/-- THE FRAME: every weakly fair execution terminates and the five argument arrays end as launched — the two the
    windows read by the library's account of an input window's array, the three that bypass the region by the host
    lines never writing them. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).1 1).trans (((dats m 0 c).arrAt_in 1 rfl cfg0.N).trans (A_eq m c 1)),
     ((h c).2 main_arg1 (Pipeline.mem_restRefs_of main_arg1 (by decide) (by decide))).trans (end_arg m c main_arg1 (by simp)),
     ((h c).1 0).trans (((dats m 0 c).arrAt_in 0 rfl cfg0.N).trans (A_eq m c 0)),
     ((h c).2 main_arg3 (Pipeline.mem_restRefs_of main_arg3 (by decide) (by decide))).trans (end_arg m c main_arg3 (by simp)),
     ((h c).2 main_arg4 (Pipeline.mem_restRefs_of main_arg4 (by decide) (by decide))).trans (end_arg m c main_arg4 (by simp))⟩)
    (run_main m ρ)

end Cert.KernelIdeal.Tile

end
-- ==== Proof.LibGatherRows.lean ====
/-
  A general lemma about `stablehlo.gather` as `x[idx]` of a TABLE OF ROWS lowers it: operand `[N, C]`, start
  indices laid out as a column `[B, 1]`, result `[B, C]`; offset axis 1, collapsed axis 0, start index map [0], the
  index vector on axis 1, slice sizes (1, C). Result element `(b, j)` is the operand's row `idx[b, 0]` — read as a
  signed integer and clamped into `[0, N - 1]`, as the gather clamps every start index — at column `j`.
-/
import Idealize.ShloMosaic.PureOps.Ideal
import Idealize.ShloMosaic.Lib.ValueIdx

noncomputable section

namespace Idealize.ShloMosaic.GatherRows

open Idealize.ShloMosaic Idealize.ShloMosaic.ValueIdx

variable {α : Type}

/-- The dimension numbers of a row gather from an `[N, C]` table at a column `[B, 1]` of start indices. -/
abbrev rowDims (N C B : Nat)
    (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- The row of an `N`-row table that a start-index word selects: the word read signed, negative to 0, and clamped to the
    last row. -/
def rowOf (N : Nat) (hN : 0 < N) {w : Nat} (x : BitVec w) : Fin N := ⟨min x.toInt.toNat (N - 1), by omega⟩

/-- THE ROW GATHER READ AT `(b, j)`: the table at row `rowOf N _ (idx (b, 0))`, column `j`. -/
theorem gather_rows_apply {N C B w : Nat} (hN : 0 < N)
    (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ w) (b : Fin B) (j : Fin C) :
    Host.gather (rowDims N C B wf) x idx (ix2 b j) = x (ix2 (rowOf N hN (idx (ix2 b (0 : Fin 1)))) j) := by
  unfold Host.gather
  congr 1
  funext a
  refine Fin.ext ?_
  show (rowDims N C B wf).start (ix2 b j) idx a + (rowDims N C B wf).batchCoord (ix2 b j) a
    + (rowDims N C B wf).offCoord (ix2 b j) a = _
  rw [GatherDims.batchCoord_eq_zero _ _ _ List.not_mem_nil, Nat.add_zero]
  have ha : a = (0 : Fin 2) ∨ a = (1 : Fin 2) := by
    match a with
    | ⟨0, _⟩ => exact Or.inl rfl
    | ⟨1, _⟩ => exact Or.inr rfl
  have h10 : ¬ ((1 : Fin 2) = 0) := fun h => Nat.one_ne_zero (congrArg Fin.val h)
  rcases ha with rfl | rfl
  · -- the collapsed axis: no offset, the start is the clamped start index
    rw [GatherDims.offCoord_eq_zero _ _ _
      (fun h => ((GatherDims.mem_sKept _ _).mp h).1 (List.mem_singleton.mpr rfl)), Nat.add_zero]
    unfold GatherDims.start
    rw [dif_pos (show (0 : Fin 2) ∈ (rowDims N C B wf).startIndexMap from List.mem_singleton.mpr rfl)]
    have hsi : (rowDims N C B wf).siIdx (ix2 b j) ⟨List.idxOf (0 : Fin 2) (rowDims N C B wf).startIndexMap,
        List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  · -- the kept axis: not in the start index map, so the start is 0; the offset is the result's column
    have hnot : (1 : Fin 2) ∉ (rowDims N C B wf).startIndexMap := fun h => h10 (List.mem_singleton.mp h)
    have hk : (1 : Fin 2) ∈ (rowDims N C B wf).sKept :=
      (GatherDims.mem_sKept _ _).mpr ⟨fun h => h10 (List.mem_singleton.mp h), List.not_mem_nil⟩
    unfold GatherDims.start
    rw [dif_neg hnot, Nat.zero_add]
    unfold GatherDims.offCoord
    rw [dif_pos hk]
    rfl

end Idealize.ShloMosaic.GatherRows

end
-- ==== Proof.Spec.lean ====
/-
  The specification of the score both programs compute, and the law that joins their two groupings.

  For a batch entry with user row `r` (of 10000) and item row `s` (of 100000):
    * the kernel forms, for every user row, the table `Q[r, d] = (Σ_k sw[r, k] · ue[k, d]) + ue[r, d]` and answers
      `0 + Σ_d Q[r, d] · ie[s, d]`  (`scoreK`);
    * the reference answers `(0 + Σ_d ue[r, d] · ie[s, d]) + (0 + Σ_k sw[r, k] · Σ_d ie[s, d] · ue[k, d])`  (`scoreR`).
  Over FINITE entries these agree: distribute the product over the inner sum, exchange the two finite sums, and
  commute the factors. On the extended reals distributivity fails at the infinities, so the law takes the entries'
  finiteness as hypotheses.

  The rows are read off the index arrays exactly as both programs do it: a negative index has the table's length
  added (`startIdx`), the result is laid out as a column, and the gather reads it signed and clamps it
  (`GatherRows.rowOf`).
-/
import Idealize.ShloMosaic.PureOps.Ideal
import Idealize.ShloMosaic.Lib.ValueIdx
import proofs.«150750_j51737176048221_1_alg».proof.Proof.LibGatherRows

noncomputable section

open scoped BigOperators

namespace Cert.Bpr

open Idealize.ShloMosaic Idealize.ShloMosaic.ValueIdx Idealize.ShloMosaic.GatherRows

/-- The user-embedding table's index set, `[10000, 64]`; the item table's, `[100000, 64]`; the social weights',
    `[10000, 10000]`; the batch's, `[4096]`, its column layout `[4096, 1]`, and the scalar shape. -/
abbrev SUe : Shape := ⟨2, ![10000, 64]⟩
abbrev SIe : Shape := ⟨2, ![100000, 64]⟩
abbrev SSw : Shape := ⟨2, ![10000, 10000]⟩
abbrev SB : Shape := ⟨1, ![4096]⟩
abbrev SBcol : Shape := ⟨2, ![4096, 1]⟩
abbrev S0 : Shape := ⟨0, ![]⟩

/-- The kernel's grouping of one score. -/
def scoreK (ue : SUe.Idx → EReal) (ie : SIe.Idx → EReal) (sw : SSw.Idx → EReal) (r : Fin 10000) (s : Fin 100000) : EReal :=
  0 + ∑ d : Fin 64, ((∑ k : Fin 10000, sw (ix2 r k) * ue (ix2 k d)) + ue (ix2 r d)) * ie (ix2 s d)

/-- The reference's grouping of the same score. -/
def scoreR (ue : SUe.Idx → EReal) (ie : SIe.Idx → EReal) (sw : SSw.Idx → EReal) (r : Fin 10000) (s : Fin 100000) : EReal :=
  (0 + ∑ d : Fin 64, ue (ix2 r d) * ie (ix2 s d))
    + (0 + ∑ k : Fin 10000, sw (ix2 r k) * ∑ d : Fin 64, ie (ix2 s d) * ue (ix2 k d))

/-- The coercion into the extended reals of a finite real sum is the sum of the coercions. -/
private theorem coe_finsum {ι : Type} [Fintype ι] (f : ι → ℝ) :
    ((∑ i, f i : ℝ) : EReal) = ∑ i, (f i : EReal) := by
  classical
  have key : ∀ t : Finset ι, ((∑ i ∈ t, f i : ℝ) : EReal) = ∑ i ∈ t, (f i : EReal) := by
    intro t
    induction t using Finset.induction_on with
    | empty => rw [Finset.sum_empty, Finset.sum_empty, EReal.coe_zero]
    | insert a t ha ih => rw [Finset.sum_insert ha, Finset.sum_insert ha, EReal.coe_add, ih]
  exact key Finset.univ

/-- The law over the reals, for any finite index types: distribute the product over the inner sum and over the added
    term, exchange the two sums, commute the factors. -/
private theorem law_real {K D : Type} [Fintype K] [Fintype D] (q : D → ℝ) (u : K → D → ℝ) (w : K → ℝ) (v : D → ℝ) :
    0 + ∑ d, ((∑ k, w k * u k d) + v d) * q d
      = (0 + ∑ d, v d * q d) + (0 + ∑ k, w k * ∑ d, q d * u k d) := by
  simp only [zero_add, add_mul, Finset.sum_add_distrib, Finset.sum_mul, Finset.mul_sum]
  rw [add_comm, Finset.sum_comm]
  refine congrArg _ (Finset.sum_congr rfl fun k _ => Finset.sum_congr rfl fun d _ => ?_)
  rw [mul_assoc, mul_comm (u k d)]

/-- THE LAW: over finite entries the two groupings are one number. -/
theorem scoreK_eq_scoreR (ue : SUe.Idx → EReal) (ie : SIe.Idx → EReal) (sw : SSw.Idx → EReal)
    (hue : ∀ i, ∃ x : ℝ, ue i = (x : EReal)) (hie : ∀ i, ∃ x : ℝ, ie i = (x : EReal)) (hsw : ∀ i, ∃ x : ℝ, sw i = (x : EReal))
    (r : Fin 10000) (s : Fin 100000) : scoreK ue ie sw r s = scoreR ue ie sw r s := by
  choose fue hfue using hue
  choose fie hfie using hie
  choose fsw hfsw using hsw
  unfold scoreK scoreR
  simp only [hfue, hfie, hfsw]
  have h := congrArg (fun x : ℝ => (x : EReal))
    (law_real (fun d : Fin 64 => fie (ix2 s d)) (fun (k : Fin 10000) (d : Fin 64) => fue (ix2 k d))
      (fun k : Fin 10000 => fsw (ix2 r k)) (fun d : Fin 64 => fue (ix2 r d)))
  simp only [EReal.coe_add, EReal.coe_mul, coe_finsum, EReal.coe_zero] at h
  exact h

/-- The start indices @main computes from an index array `x` for a table of `n` rows: `x + n` where `x` is negative,
    else `x`, laid out as a column. (`h0`, `h1`: the two broadcasts' shape facts, which each program states.) -/
def startIdx (h0 : S0.BroadcastsInDim SB (![] : Fin 0 → Fin SB.rank)) (h1 : SB.BroadcastsInDim SBcol (![0] : Fin 1 → Fin SBcol.rank))
    (n : BitVec 32) (x : IVec SB 32) : IVec SBcol 32 :=
  broadcastInDim SBcol ![0] h1
    (select (cmpi .slt x (broadcastInDim SB ![] h0 (constantI S0 32 0#32)))
      (addi x (broadcastInDim SB ![] h0 (constantI S0 32 n))) x)

/-- The user row of batch entry `b`, from the column of start indices. -/
def userRow (sidx : IVec SBcol 32) (b : Fin 4096) : Fin 10000 := rowOf 10000 (by decide) (sidx (ix2 b (0 : Fin 1)))
/-- The item row of batch entry `b`. -/
def itemRow (sidx : IVec SBcol 32) (b : Fin 4096) : Fin 100000 := rowOf 100000 (by decide) (sidx (ix2 b (0 : Fin 1)))

/-- The kernel's result as ONE function of the five argument arrays, and the reference's. -/
def resultK (h0 : S0.BroadcastsInDim SB (![] : Fin 0 → Fin SB.rank)) (h1 : SB.BroadcastsInDim SBcol (![0] : Fin 1 → Fin SBcol.rank)) (ue : SUe.Idx → EReal) (ie : SIe.Idx → EReal) (sw : SSw.Idx → EReal) (users items : IVec SB 32) : SB.Idx → EReal :=
  fun b => scoreK ue ie sw (userRow (startIdx h0 h1 10000#32 users) (b 0)) (itemRow (startIdx h0 h1 100000#32 items) (b 0))
def resultR (h0 : S0.BroadcastsInDim SB (![] : Fin 0 → Fin SB.rank)) (h1 : SB.BroadcastsInDim SBcol (![0] : Fin 1 → Fin SBcol.rank)) (ue : SUe.Idx → EReal) (ie : SIe.Idx → EReal) (sw : SSw.Idx → EReal) (users items : IVec SB 32) : SB.Idx → EReal :=
  fun b => scoreR ue ie sw (userRow (startIdx h0 h1 10000#32 users) (b 0)) (itemRow (startIdx h0 h1 100000#32 items) (b 0))

/-- Over finite tables the two results are one array. -/
theorem resultK_eq_resultR (h0 : S0.BroadcastsInDim SB (![] : Fin 0 → Fin SB.rank)) (h1 : SB.BroadcastsInDim SBcol (![0] : Fin 1 → Fin SBcol.rank)) (ue : SUe.Idx → EReal) (ie : SIe.Idx → EReal) (sw : SSw.Idx → EReal) (users items : IVec SB 32)
    (hue : ∀ i, ∃ x : ℝ, ue i = (x : EReal)) (hie : ∀ i, ∃ x : ℝ, ie i = (x : EReal)) (hsw : ∀ i, ∃ x : ℝ, sw i = (x : EReal)) :
    resultK h0 h1 ue ie sw users items = resultR h0 h1 ue ie sw users items :=
  funext fun _ => scoreK_eq_scoreR ue ie sw hue hie hsw _ _

end Cert.Bpr

end
-- ==== Proof.KernelValue.lean ====
/-
  What the idealized kernel computes, as one function of the argument arrays.

  At the ideal instance a tile's matrix product into the zero accumulator is the plain sum over the 10000 user rows
  (narrowing to bf16 is the identity), so the tile stored at point `t` is, entry by entry,
  `Q[200·t + p, q] = (Σ_k sw[200·t + p, k] · ue[k, q]) + ue[200·t + p, q]`. The fifty tiles cover the result table,
  which therefore ends at `Qtab sw ue`; the host lines then gather a user row of it and an item row of the item table
  per batch entry, multiply, and sum over the 64 columns: `Cert.Bpr.resultK`.
-/
import proofs.«150750_j51737176048221_1_alg».proof.Proof.KernelIdealLaunch
import proofs.«150750_j51737176048221_1_alg».proof.Proof.Spec
import Idealize.ShloMosaic.Lib.Pipeline.Value
import Idealize.ShloMosaic.Lib.ValueIdx
import Idealize.ShloMosaic.PureOps.Ideal.Laws
import Idealize.ShloMosaic.Lib.StableHlo.Run

set_option maxRecDepth 16384

noncomputable section

open scoped BigOperators

namespace Cert.KernelIdeal.TileValue

open Cert.KernelIdeal Cert.KernelIdeal.Gen Cert.KernelIdeal.Tile
open Idealize.ShloMosaic Idealize.ShloMosaic.TcCoe Idealize.ShloMosaic.ValueIdx Idealize.ShloMosaic.GatherRows
open Idealize.SL.Sem Idealize.ShloMosaic.StableHlo
open Idealize.ShloMosaic.Pipeline (Dat)

/-! ## The tile's matrix product at an index -/

theorem zeroOff : (![0, 0] : Fin 2 → Nat) = fun _ => 0 := funext fun a => by fin_cases a <;> rfl

/-- The product's left operand index on its row axis is the output's row; -/
theorem mmL0 (i : S200x64.Idx) (q : dot_S200x10000_S10000x64_S200x64_1_0_0_1_n_n.contr.Idx) :
    (dot_S200x10000_S10000x64_S200x64_1_0_0_1_n_n.lhsIdx i q 0).val = (i 0).val := by
  unfold DotDims.lhsIdx
  rw [dif_neg (show ¬(0 : Fin S200x10000.rank) ∈ dot_S200x10000_S10000x64_S200x64_1_0_0_1_n_n.lhsBatch by decide),
    dif_pos (show (0 : Fin S200x10000.rank) ∈ dot_S200x10000_S10000x64_S200x64_1_0_0_1_n_n.lhsNonContracting by decide)]
  rfl
/-- on its column axis, the contraction's coordinate. -/
theorem mmL1 (i : S200x64.Idx) (q : dot_S200x10000_S10000x64_S200x64_1_0_0_1_n_n.contr.Idx) :
    (dot_S200x10000_S10000x64_S200x64_1_0_0_1_n_n.lhsIdx i q 1).val = (q ⟨0, by decide⟩).val :=
  dot_S200x10000_S10000x64_S200x64_1_0_0_1_n_n.lhsIdx_val_of_single rfl i q
/-- The right operand index on its row axis is the contraction's coordinate; -/
theorem mmR0 (i : S200x64.Idx) (q : dot_S200x10000_S10000x64_S200x64_1_0_0_1_n_n.contr.Idx) :
    (dot_S200x10000_S10000x64_S200x64_1_0_0_1_n_n.rhsIdx i q 0).val = (q ⟨0, by decide⟩).val :=
  dot_S200x10000_S10000x64_S200x64_1_0_0_1_n_n.rhsIdx_val_of_single rfl i q
/-- on its column axis, the output's column. -/
theorem mmR1 (i : S200x64.Idx) (q : dot_S200x10000_S10000x64_S200x64_1_0_0_1_n_n.contr.Idx) :
    (dot_S200x10000_S10000x64_S200x64_1_0_0_1_n_n.rhsIdx i q 1).val = (i 1).val := by
  unfold DotDims.rhsIdx
  rw [dif_neg (show ¬(1 : Fin S10000x64.rank) ∈ dot_S200x10000_S10000x64_S200x64_1_0_0_1_n_n.rhsBatch by decide),
    dif_pos (show (1 : Fin S10000x64.rank) ∈ dot_S200x10000_S10000x64_S200x64_1_0_0_1_n_n.rhsNonContracting by decide)]
  rfl

/-- THE STORED TILE AT `(p, q)`: the sum over the user rows of the weight tile's row `p` against the table's column `q`,
    plus the user tile's entry. -/
theorem qTile_apply (sw : Vec Ideal S200x10000 .f32) (ue : Vec Ideal S10000x64 .f32) (ut : Vec Ideal S200x64 .f32) (p : Fin 200) (q : Fin 64) :
    qTile (F := Ideal) sw ue ut (ix2 p q) = (∑ k : Fin 10000, sw (ix2 p k) * ue (ix2 k q)) + ut (ix2 p q) := by
  unfold qTile
  rw [View.canon_unit_zero zeroOff]
  simp only [View.ld_unit_zero (S := S200x10000) zeroOff, View.ld_unit_zero (S := S10000x64) zeroOff, View.ld_unit_zero (S := S200x64) zeroOff]
  unfold k0_pay1
  refine (addf_apply _ _ _).trans ?_
  refine congrArg (· + ut (ix2 p q)) ?_
  simp only [matmul]
  refine (Ideal.matmul_constant_zero_apply dot_S200x10000_S10000x64_S200x64_1_0_0_1_n_n none _ _ (ix2 p q)).trans ?_
  rw [← Equiv.sum_comp (contrEquiv1 dot_S200x10000_S10000x64_S200x64_1_0_0_1_n_n 10000 rfl rfl).symm]
  refine Finset.sum_congr rfl fun k _ => ?_
  have hk := contrEquiv1_symm_val dot_S200x10000_S10000x64_S200x64_1_0_0_1_n_n 10000 rfl rfl k
  have el : dot_S200x10000_S10000x64_S200x64_1_0_0_1_n_n.lhsIdx (ix2 p q) ((contrEquiv1 dot_S200x10000_S10000x64_S200x64_1_0_0_1_n_n 10000 rfl rfl).symm k) = ix2 p k :=
    funext fun a => Fin.ext (by
      match a with
      | ⟨0, _⟩ => exact mmL0 _ _
      | ⟨1, _⟩ => exact (mmL1 _ _).trans hk)
  have er : dot_S200x10000_S10000x64_S200x64_1_0_0_1_n_n.rhsIdx (ix2 p q) ((contrEquiv1 dot_S200x10000_S10000x64_S200x64_1_0_0_1_n_n 10000 rfl rfl).symm k) = ix2 k q :=
    funext fun a => Fin.ext (by
      match a with
      | ⟨0, _⟩ => exact (mmR0 _ _).trans hk
      | ⟨1, _⟩ => exact mmR1 _ _)
  rw [el, er]
  rfl

/-! ## From the fifty tiles to the result table -/

variable (m : (ℓ : Loc nD τ sig) → Buf (Elt Ideal) ℓ) (ρ : Dev nD → PrngReg)

/-- The result table as one function of the social weights and the user table: row `r`, column `d` holds
    `(Σ_k sw[r, k] · ue[k, d]) + ue[r, d]`. -/
def Qtab (sw : S10000x10000.Idx → EReal) (ue : S10000x64.Idx → EReal) : S10000x64.Idx → EReal :=
  fun i => (∑ k : Fin 10000, sw (ix2 (i 0) k) * ue (ix2 k (i 1))) + ue (ix2 (i 0) (i 1))

/-- A tile's entry, read through where its three operands sit in the arrays, is the table's entry there. -/
theorem tile_entry (sw' : Vec Ideal S200x10000 .f32) (ue' : Vec Ideal S10000x64 .f32) (ut' : Vec Ideal S200x64 .f32)
    (A : FVec Ideal S10000x10000 .f32) (B : FVec Ideal S10000x64 .f32) (p : Fin 200) (q : Fin 64) (r : Fin 10000) (d : Fin 64)
    (h0 : ∀ k : Fin 10000, sw' (ix2 p k) = A (ix2 r k)) (h1 : ∀ k : Fin 10000, ue' (ix2 k q) = B (ix2 k d))
    (h2 : ut' (ix2 p q) = B (ix2 r d)) :
    (∑ k : Fin 10000, sw' (ix2 p k) * ue' (ix2 k q)) + ut' (ix2 p q) = Qtab A B (ix2 r d) := by
  rw [h2, Finset.sum_congr rfl fun k _ => by rw [h0 k, h1 k]]
  rfl

/-- The launched social weights and user table on core `c`, at their literal types. -/
abbrev swArr (c : Dev nD) : FVec Ideal S10000x10000 .f32 := m ((c.tc : Thread nD τ).loc main_arg2)
abbrev ueArr (c : Dev nD) : FVec Ideal S10000x64 .f32 := m ((c.tc : Thread nD τ).loc main_arg0)

/-- The printed index maps over the grid: the weight tile, the user tile and the output tile sit at row block `t`,
    column block 0; the whole user table at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is tile `t` of `Qtab` of the launched arrays. -/
theorem flushed_q (c : Dev nD) (t : Fin cfg0.N) :
    (dats m 0 c).flushed 3 t
      = ((cfg0.win 3).blk t).view.read (Elt Ideal) (Qtab (swArr m c) (ueArr m c)) := by
  show (cfg0.win 3).cut (grid0.coords t) ((dats m 0 c).after 3 t) = _
  rw [after_q]
  obtain ⟨e00, e01, e10, e11, e20, e21, e30, e31⟩ := idx_facts t
  funext j
  obtain ⟨p, q, rfl⟩ : ∃ (p : Fin 200) (q : Fin 64), j = ix2 p q := ⟨j 0, j 1, eq_ix2 j⟩
  refine (qTile_apply _ _ _ p q).trans ?_
  have h0 : ∀ k : Fin 10000, ((cfg0.win 0).blk t).view.emb (ix2 p k) = ix2 ((((cfg0.win 3).blk t).view.emb (ix2 p q)) 0) k := fun k => by
    funext a; apply Fin.ext
    match a with
    | ⟨0, _⟩ => show win0_0.index t (0 : Fin 2) * 200 + 1 * p.val = win0_3.index t (0 : Fin 2) * 200 + 1 * p.val; omega
    | ⟨1, _⟩ => show win0_0.index t (1 : Fin 2) * 10000 + 1 * k.val = k.val; omega
  have h1 : ∀ k : Fin 10000, ((cfg0.win 1).blk t).view.emb (ix2 k q) = ix2 k ((((cfg0.win 3).blk t).view.emb (ix2 p q)) 1) := fun k => by
    funext a; apply Fin.ext
    match a with
    | ⟨0, _⟩ => show win0_1.index t (0 : Fin 2) * 10000 + 1 * k.val = k.val; omega
    | ⟨1, _⟩ => show win0_1.index t (1 : Fin 2) * 64 + 1 * q.val = win0_3.index t (1 : Fin 2) * 64 + 1 * q.val; omega
  have h2 : ((cfg0.win 2).blk t).view.emb (ix2 p q)
      = ix2 ((((cfg0.win 3).blk t).view.emb (ix2 p q)) 0) ((((cfg0.win 3).blk t).view.emb (ix2 p q)) 1) := by
    funext a; apply Fin.ext
    match a with
    | ⟨0, _⟩ => show win0_2.index t (0 : Fin 2) * 200 + 1 * p.val = win0_3.index t (0 : Fin 2) * 200 + 1 * p.val; omega
    | ⟨1, _⟩ => show win0_2.index t (1 : Fin 2) * 64 + 1 * q.val = win0_3.index t (1 : Fin 2) * 64 + 1 * q.val; omega
  have t0 : ∀ k : Fin 10000, tile m c 0 t (ix2 p k) = swArr m c (ix2 ((((cfg0.win 3).blk t).view.emb (ix2 p q)) 0) k) :=
    fun k => congrArg (swArr m c) (h0 k)
  have t1 : ∀ k : Fin 10000, tile m c 1 t (ix2 k q) = ueArr m c (ix2 k ((((cfg0.win 3).blk t).view.emb (ix2 p q)) 1)) :=
    fun k => congrArg (ueArr m c) (h1 k)
  have t2 : tile m c 2 t (ix2 p q)
      = ueArr m c (ix2 ((((cfg0.win 3).blk t).view.emb (ix2 p q)) 0) ((((cfg0.win 3).blk t).view.emb (ix2 p q)) 1)) :=
    congrArg (ueArr m c) h2
  refine (tile_entry _ _ _ (swArr m c) (ueArr m c) p q _ _ t0 t1 t2).trans ?_
  rfl

/-- An index of the table is in point `t`'s tile iff each coordinate is in the tile's range on its axis. -/
theorem mem_tile (t : Fin cfg0.N) (i : S10000x64.Idx) :
    i ∈ ((cfg0.win 3).blk t).view.set
      ↔ ∀ a : Fin 2, win0_3.index t a * S200x64.size a ≤ (i a).val ∧ (i a).val < win0_3.index t a * S200x64.size a + S200x64.size a := by
  show i ∈ ((View.whole main_v0).slice (win0_3.rect t)).set ↔ _
  rw [View.set_slice_whole, Rect.mem_set_unit]
  exact Iff.rfl

/-- The tiles cover the table: row `r` lies in tile `r / 200`. -/
theorem tiles_cover (i : S10000x64.Idx) : ∃ t : Fin cfg0.N, (cfg0.win 3).flush t = true ∧ i ∈ ((cfg0.win 3).blk t).view.set := by
  have hi0 : (i 0).val < 10000 := (i 0).isLt
  have hi1 : (i 1).val < 64 := (i 1).isLt
  have hN : grid0.N = 50 := N_0
  let t : Fin cfg0.N := ⟨(i 0).val / 200, by show _ < grid0.N; omega⟩
  refine ⟨t, flush0_3 t, ?_⟩
  obtain ⟨-, -, -, -, -, -, e30, e31⟩ := idx_facts t
  have ht : t.val = (i 0).val / 200 := rfl
  rw [mem_tile]
  intro a
  match a with
  | ⟨0, _⟩ => show win0_3.index t (0 : Fin 2) * 200 ≤ (i 0).val ∧ (i 0).val < win0_3.index t (0 : Fin 2) * 200 + 200; omega
  | ⟨1, _⟩ => show win0_3.index t (1 : Fin 2) * 64 ≤ (i 1).val ∧ (i 1).val < win0_3.index t (1 : Fin 2) * 64 + 64; omega

/-- THE RESULT TABLE after the region: `Qtab` of the launched weights and user table. -/
theorem final_q (c : Dev nD) :
    (dats m 0 c).arrAt 3 cfg0.N = Qtab (swArr m c) (ueArr m c) :=
  (dats m 0 c).arrAt_eq_of_cover 3 _ (fun t _ => flushed_q m c t) tiles_cover

/-! ## The host lines -/

/-- The two gather records of the host lines are row gathers. -/
theorem gatherQ_eq : gather_S10000x64_S4096x1_S4096x64_1_0_n_n_0_1_164
    = rowDims 10000 64 4096 gather_S10000x64_S4096x1_S4096x64_1_0_n_n_0_1_164_wf := rfl
theorem gatherI_eq : gather_S100000x64_S4096x1_S4096x64_1_0_n_n_0_1_164
    = rowDims 100000 64 4096 gather_S100000x64_S4096x1_S4096x64_1_0_n_n_0_1_164_wf := rfl

/-- The host lines as one function of the result table, the item table and the two index arrays: gather a row of each
    per batch entry, multiply entry by entry, sum over the 64 columns from zero. -/
def hostOut (Q : FVec Ideal S10000x64 .f32) (ie : FVec Ideal S100000x64 .f32) (us it : IVec S4096 32) : FVec Ideal S4096 .f32 :=
  Host.reduceAdd
    (mulf (Host.gather gather_S10000x64_S4096x1_S4096x64_1_0_n_n_0_1_164 Q (Cert.Bpr.startIdx bcast_S_S4096 bcast_S4096_S4096x1_0 10000#32 us))
      (Host.gather gather_S100000x64_S4096x1_S4096x64_1_0_n_n_0_1_164 ie (Cert.Bpr.startIdx bcast_S_S4096 bcast_S4096_S4096x1_0 100000#32 it)))
    (constant (F := Ideal) S_ .f32 0x00000000#32) reducesTo_S4096x64_S4096_d1 h_S_

/-- At batch entry `p`: zero plus the inner product of the table's user row with the item row. -/
theorem hostOut_apply (Q : FVec Ideal S10000x64 .f32) (ie : FVec Ideal S100000x64 .f32) (us it : IVec S4096 32) (p : Fin 4096) :
    hostOut Q ie us it (ix1 p)
      = 0 + ∑ d : Fin 64,
          Q (ix2 (Cert.Bpr.userRow (Cert.Bpr.startIdx bcast_S_S4096 bcast_S4096_S4096x1_0 10000#32 us) p) d)
            * ie (ix2 (Cert.Bpr.itemRow (Cert.Bpr.startIdx bcast_S_S4096 bcast_S4096_S4096x1_0 100000#32 it) p) d) := by
  unfold hostOut
  generalize Cert.Bpr.startIdx bcast_S_S4096 bcast_S4096_S4096x1_0 10000#32 us = su
  generalize Cert.Bpr.startIdx bcast_S_S4096 bcast_S4096_S4096x1_0 100000#32 it = si
  simp only [Host.reduceAdd, Ideal.hostReduceAdd_def]
  rw [Ideal.hostReduceAdd_single reducesTo_S4096x64_S4096_d1 (by decide)]
  refine congrArg₂ (· + ·) (by show Ideal.ofBits .f32 0x00000000#32 = 0; exact Ideal.ofBits_zero_f32) (Finset.sum_congr rfl fun (d : Fin 64) _ => ?_)
  have hidx : (Shape.Reduces.lift (by decide : S4096x64.Reduces [1] S4096) (ix1 p) d : S4096x64.Idx) = ix2 p d :=
    funext fun a => Fin.ext (by match a with | ⟨0, _⟩ => rfl | ⟨1, _⟩ => rfl)
  rw [hidx]
  refine (mulf_apply _ _ (ix2 p d)).trans ?_
  rw [gatherQ_eq, gatherI_eq]
  exact congrArg₂ (· * ·) (gather_rows_apply (by decide) _ Q su p d) (gather_rows_apply (by decide) _ ie si p d)

/-- The host lines' result buffer, after the lines, is `hostOut` of the result table and the launched arrays. -/
theorem end_out (c : Dev nD) :
    endVal m c (Proc.devRef .tc main_v16)
      = hostOut (exitVal m c (Proc.devRef .tc main_v0)) (exitVal m c (Proc.devRef .tc main_arg1))
          (exitVal m c (Proc.devRef .tc main_arg3)) (exitVal m c (Proc.devRef .tc main_arg4)) := by
  unfold endVal
  show StableHlo.after hostOps1 _ (Proc.devRef .tc main_v16) = _
  after_results
  rfl

/-- THE RESULT: the kernel's grouping of every score, at the rows the two gathers read. -/
theorem out_eq (c : Dev nD) :
    endVal m c (Proc.devRef .tc main_v16)
      = Cert.Bpr.resultK bcast_S_S4096 bcast_S4096_S4096x1_0 (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  rw [end_out, exit_q, final_q, exit_rest m c main_arg1 (by decide), exit_rest m c main_arg3 (by decide), exit_rest m c main_arg4 (by decide)]
  funext b
  obtain ⟨p, rfl⟩ : ∃ p : Fin 4096, b = ix1 p := ⟨b 0, eq_ix1 b⟩
  refine (hostOut_apply _ _ _ _ p).trans ?_
  rfl

/-! ## The run, read -/

/-- Every weakly fair execution of the idealized kernel's @main terminates with its result at `resultK` of the launched
    arrays and the five arguments unchanged. -/
theorem run : θ_run (defs (F := Ideal)) (onTc (τ := τ) (main (F := Ideal))) ⟨m, fun _ => 0, ρ⟩ (fun r => ∀ c : Dev nD,
      r.2.mem ((c.tc : Thread nD τ).loc main_v16)
        = Cert.Bpr.resultK bcast_S_S4096 bcast_S4096_S4096x1_0 (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v16 (Pipeline.mem_restRefs_of main_v16 (by decide) (by decide))).trans (out_eq m c),
     ((h c).1 1).trans (((dats m 0 c).arrAt_in 1 rfl cfg0.N).trans (A_eq m c 1)),
     ((h c).2 main_arg1 (Pipeline.mem_restRefs_of main_arg1 (by decide) (by decide))).trans (end_arg m c main_arg1 (by simp)),
     ((h c).1 0).trans (((dats m 0 c).arrAt_in 0 rfl cfg0.N).trans (A_eq m c 0)),
     ((h c).2 main_arg3 (Pipeline.mem_restRefs_of main_arg3 (by decide) (by decide))).trans (end_arg m c main_arg3 (by simp)),
     ((h c).2 main_arg4 (Pipeline.mem_restRefs_of main_arg4 (by decide) (by decide))).trans (end_arg m c main_arg4 (by simp))⟩)
    (run_main m ρ)

end Cert.KernelIdeal.TileValue

end
-- ==== Proof.RefValue.lean ====
/-
  The reference's result, read one operation at a time, is `Cert.Bpr.resultR` of the five argument arrays.
-/
import proofs.«150750_j51737176048221_1_alg».proof.Proof.Gen.ReferenceIdeal.Run
import proofs.«150750_j51737176048221_1_alg».proof.Proof.Gen.ReferenceIdeal.Read
import proofs.«150750_j51737176048221_1_alg».proof.Proof.Spec
import Idealize.ShloMosaic.PureOps.Ideal.Laws
import Idealize.ShloMosaic.Lib.ValueIdx

noncomputable section

open scoped BigOperators

namespace Cert.ReferenceIdeal.RefValue

open Idealize.ShloMosaic Idealize.ShloMosaic.ValueIdx Idealize.ShloMosaic.GatherRows
open Cert.ReferenceIdeal Cert.ReferenceIdeal.Facts₀

variable [Cert.ReferenceIdeal.Facts]

/-! ### The three gather records are row gathers -/

/-- The gather of user-embedding rows has the row gather's dimension numbers. -/
theorem gatherUe_eq :
    gather_S10000x64_S4096x1_S4096x64_1_0_n_n_0_1_164
      = rowDims 10000 64 4096 gather_S10000x64_S4096x1_S4096x64_1_0_n_n_0_1_164_wf := rfl
/-- The gather of item-embedding rows has the row gather's dimension numbers. -/
theorem gatherIe_eq :
    gather_S100000x64_S4096x1_S4096x64_1_0_n_n_0_1_164
      = rowDims 100000 64 4096 gather_S100000x64_S4096x1_S4096x64_1_0_n_n_0_1_164_wf := rfl
/-- The gather of social-weight rows has the row gather's dimension numbers. -/
theorem gatherSw_eq :
    gather_S10000x10000_S4096x1_S4096x10000_1_0_n_n_0_1_110000
      = rowDims 10000 10000 4096 gather_S10000x10000_S4096x1_S4096x10000_1_0_n_n_0_1_110000_wf := rfl

/-! ### Where each reduction and the contraction read their operands -/

/-- The sum over the 64 embedding coordinates of entry `p` reads `(p, d)`. -/
theorem idx15 (p : Fin 4096) (d : Fin 64) : Read.idx_main_v15 (ix1 p) d = ix2 p d :=
  funext fun a => Fin.ext (by match a with | ⟨0, _⟩ => rfl | ⟨1, _⟩ => rfl)
/-- The sum over the 10000 user rows of entry `p` reads `(p, k)`. -/
theorem idx25 (p : Fin 4096) (k : Fin 10000) : Read.idx_main_v25 (ix1 p) k = ix2 p k :=
  funext fun a => Fin.ext (by match a with | ⟨0, _⟩ => rfl | ⟨1, _⟩ => rfl)
/-- The contraction's left operand at `(p, k)`, term `d`: `(p, d)`. -/
theorem lidx16 (p : Fin 4096) (k : Fin 10000) (d : Fin 64) : Read.lidx_main_v16 (ix2 p k) d = ix2 p d :=
  funext fun a => Fin.ext (by match a with | ⟨0, _⟩ => rfl | ⟨1, _⟩ => rfl)
/-- The contraction's right operand at `(p, k)`, term `d`: `(k, d)`. -/
theorem ridx16 (p : Fin 4096) (k : Fin 10000) (d : Fin 64) : Read.ridx_main_v16 (ix2 p k) d = ix2 k d :=
  funext fun a => Fin.ext (by match a with | ⟨0, _⟩ => rfl | ⟨1, _⟩ => rfl)

/-! ### The three gathers at an index -/

/-- The gathered user embeddings at `(p, d)`: the user table at entry `p`'s user row, column `d`. -/
theorem v6_apply (x0 : FVec Ideal S10000x64 .f32) (x3 : IVec S4096 32) (p : Fin 4096) (d : Fin 64) :
    Read.val_main_v6 (F := Ideal) x0 x3 (ix2 p d)
      = x0 (ix2 (Bpr.userRow (Bpr.startIdx bcast_S_S4096 bcast_S4096_S4096x1_0 10000#32 x3) p) d) := by
  unfold Read.val_main_v6
  rw [gatherUe_eq]
  exact gather_rows_apply (by decide) _ x0 _ p d

/-- The gathered item embeddings at `(p, d)`: the item table at entry `p`'s item row, column `d`. -/
theorem v13_apply (x1 : FVec Ideal S100000x64 .f32) (x4 : IVec S4096 32) (p : Fin 4096) (d : Fin 64) :
    Read.val_main_v13 (F := Ideal) x1 x4 (ix2 p d)
      = x1 (ix2 (Bpr.itemRow (Bpr.startIdx bcast_S_S4096 bcast_S4096_S4096x1_0 100000#32 x4) p) d) := by
  unfold Read.val_main_v13
  rw [gatherIe_eq]
  exact gather_rows_apply (by decide) _ x1 _ p d

/-- The gathered social weights at `(p, k)`: the weight table at entry `p`'s user row, column `k`. -/
theorem v23_apply (x2 : FVec Ideal S10000x10000 .f32) (x3 : IVec S4096 32) (p : Fin 4096) (k : Fin 10000) :
    Read.val_main_v23 (F := Ideal) x2 x3 (ix2 p k)
      = x2 (ix2 (Bpr.userRow (Bpr.startIdx bcast_S_S4096 bcast_S4096_S4096x1_0 10000#32 x3) p) k) := by
  unfold Read.val_main_v23
  rw [gatherSw_eq]
  exact gather_rows_apply (by decide) _ x2 _ p k

/-! ### The two summands -/

/-- The first summand of entry `p`: zero plus the inner product of its user row and its item row. -/
theorem v15_apply (x0 : FVec Ideal S10000x64 .f32) (x1 : FVec Ideal S100000x64 .f32) (x3 x4 : IVec S4096 32) (p : Fin 4096) :
    Read.val_main_v15 (F := Ideal) x0 x1 x3 x4 (ix1 p)
      = 0 + ∑ d : Fin 64,
          x0 (ix2 (Bpr.userRow (Bpr.startIdx bcast_S_S4096 bcast_S4096_S4096x1_0 10000#32 x3) p) d)
            * x1 (ix2 (Bpr.itemRow (Bpr.startIdx bcast_S_S4096 bcast_S4096_S4096x1_0 100000#32 x4) p) d) := by
  rw [Read.val_main_v15_apply, Read.val_main_cst_apply, Ideal.ofBits_def, Ideal.ofBits_zero_f32]
  refine congrArg (_ + ·) (Finset.sum_congr rfl fun d _ => ?_)
  rw [idx15, Read.val_main_v14_apply, Ideal.mulf_def, v6_apply, v13_apply]

/-- The contraction at `(p, k)`: the inner product of entry `p`'s item row with user row `k`. -/
theorem v16_apply (x0 : FVec Ideal S10000x64 .f32) (x1 : FVec Ideal S100000x64 .f32) (x4 : IVec S4096 32) (p : Fin 4096) (k : Fin 10000) :
    Read.val_main_v16 (F := Ideal) x0 x1 x4 (ix2 p k)
      = ∑ d : Fin 64,
          x1 (ix2 (Bpr.itemRow (Bpr.startIdx bcast_S_S4096 bcast_S4096_S4096x1_0 100000#32 x4) p) d) * x0 (ix2 k d) := by
  rw [Read.val_main_v16_apply]
  refine Finset.sum_congr rfl fun d _ => ?_
  rw [lidx16, ridx16, v13_apply]

/-- The second summand of entry `p`: zero plus, over every user row `k`, the social weight from entry `p`'s user row
    to `k` times the inner product of the item row with user row `k`. -/
theorem v25_apply (x0 : FVec Ideal S10000x64 .f32) (x1 : FVec Ideal S100000x64 .f32) (x2 : FVec Ideal S10000x10000 .f32) (x3 x4 : IVec S4096 32) (p : Fin 4096) :
    Read.val_main_v25 (F := Ideal) x0 x1 x2 x3 x4 (ix1 p)
      = 0 + ∑ k : Fin 10000,
          x2 (ix2 (Bpr.userRow (Bpr.startIdx bcast_S_S4096 bcast_S4096_S4096x1_0 10000#32 x3) p) k)
            * ∑ d : Fin 64,
                x1 (ix2 (Bpr.itemRow (Bpr.startIdx bcast_S_S4096 bcast_S4096_S4096x1_0 100000#32 x4) p) d) * x0 (ix2 k d) := by
  rw [Read.val_main_v25_apply, Read.val_main_cst_5_apply, Ideal.ofBits_def, Ideal.ofBits_zero_f32]
  refine congrArg (_ + ·) (Finset.sum_congr rfl fun k _ => ?_)
  rw [idx25, Read.val_main_v24_apply, Ideal.mulf_def, v23_apply, v16_apply]

/-! ### The result -/

/-- The reference's last stage is the reference's grouping of the score, at the rows the gathers read. -/
theorem result_eq (x0 : FVec Ideal S10000x64 .f32) (x1 : FVec Ideal S100000x64 .f32) (x2 : FVec Ideal S10000x10000 .f32) (x3 x4 : IVec S4096 32) :
    Cert.ReferenceIdeal.Read.val_main_v26 (F := Ideal) x0 x1 x2 x3 x4 = Cert.Bpr.resultR bcast_S_S4096 bcast_S4096_S4096x1_0 x0 x1 x2 x3 x4 := by
  funext b
  obtain ⟨p, rfl⟩ : ∃ p : Fin 4096, b = ix1 p := ⟨b 0, eq_ix1 b⟩
  rw [Read.val_main_v26_apply, Ideal.addf_def, v15_apply, v25_apply]
  rfl

end Cert.ReferenceIdeal.RefValue

end
-- ==== Proof.FiniteInputs.lean ====
/-
  From the printed finiteness precondition to "every entry of the three tables is a real".

  The precondition is the conjunction of three bits; each is the conjunction, over a whole table, of the comparison
  `|x| < +∞` of an entry with the single-precision pattern of `+∞`. In the extended reals `|x| = max x (-x)`, and
  `max x (-x) < ⊤` excludes both `⊤` and `⊥`, so the entry is the coercion of a real.
-/
import proofs.«150750_j51737176048221_1_alg».proof.Pre_finite_inputs
import proofs.«150750_j51737176048221_1_alg».proof.Proof.Gen.Pre_finite_inputs
import Idealize.ShloMosaic.PureOps.Ideal
import Idealize.ShloMosaic.Lib.ReduceAll
import Idealize.ShloMosaic.Lib.ValueIdx

noncomputable section

namespace Cert.Bpr

open Idealize.ShloMosaic Idealize.ShloMosaic.ValueIdx

variable [Cert.Pre_finite_inputs.Facts]

/-- The scalar shape has one index. -/
instance subsingleton_scalar_idx : Subsingleton Cert.Pre_finite_inputs.S_.Idx :=
  ⟨fun a b => funext fun d => d.elim0⟩

/-- The single-precision pattern `0x7F800000` (sign 0, exponent all ones, fraction 0) denotes `+∞`. -/
private theorem ofBits_inf : Ideal.ofBits .f32 0x7F800000#32 = (⊤ : EReal) := by
  simp [Ideal.ofBits, Ideal.ieee]

/-- An extended real whose absolute value `max y (-y)` is below `⊤` is a real: `⊤` fails on the left operand of the
    maximum, `⊥` on the right one, since `-⊥ = ⊤`. -/
private theorem real_of_abs_lt_top (y : EReal) (h : max y (-y) < ⊤) : ∃ r : ℝ, y = (r : EReal) := by
  obtain ⟨h1, h2⟩ := max_lt_iff.1 h
  induction y using EReal.rec with
  | bot => rw [EReal.neg_bot] at h2; exact absurd h2 (lt_irrefl _)
  | coe r => exact ⟨r, rfl⟩
  | top => exact absurd h1 (lt_irrefl _)

/-- The bit of a Boolean is 1 exactly when the Boolean is true. -/
private theorem ofBool_eq_one {b : Bool} : BitVec.ofBool b = 1#1 ↔ b = true := by cases b <;> decide

/-- One entry: where the comparison `|x i| < +∞` answers 1, `x i` is a real. -/
private theorem real_of_cmp {S : Shape} (hb : Cert.Pre_finite_inputs.S_.BroadcastsInDim S (![] : Fin 0 → Fin S.rank))
    (x : FVec Ideal S .f32) (i : S.Idx)
    (e : cmpf .olt (Host.absf x)
      (broadcastInDim S ![] hb (constant (F := Ideal) Cert.Pre_finite_inputs.S_ .f32 0x7F800000#32)) i = 1#1) :
    ∃ r : ℝ, x i = (r : EReal) := by
  have e' : BitVec.ofBool (decide (max (x i) (-(x i)) < Ideal.ofBits .f32 0x7F800000#32)) = 1#1 := e
  rw [ofBits_inf] at e'
  exact real_of_abs_lt_top (x i) (of_decide_eq_true (ofBool_eq_one.1 e'))

/-- THE PRECONDITION READ BACK: if the printed finiteness predicate answers 1, every entry of each of the three tables
    is the coercion of a real. -/
theorem finite_of_pre (a0 : FVec Ideal Cert.Pre_finite_inputs.S10000x64 .f32) (a1 : FVec Ideal Cert.Pre_finite_inputs.S100000x64 .f32) (a2 : FVec Ideal Cert.Pre_finite_inputs.S10000x10000 .f32) (a3 a4 : IVec Cert.Pre_finite_inputs.S4096 32)
    (h : Cert.Pre_finite_inputs.fn (F := Ideal) a0 a1 a2 a3 a4 = fun _ => 1#1) :
    (∀ i, ∃ x : ℝ, a0 i = (x : EReal)) ∧ (∀ i, ∃ x : ℝ, a1 i = (x : EReal)) ∧ (∀ i, ∃ x : ℝ, a2 i = (x : EReal)) := by
  have h0 := congrFun h ValueIdx.ix0
  dsimp only [Cert.Pre_finite_inputs.fn] at h0
  -- the three bits
  obtain ⟨h01, e2⟩ := IntOp.andi_eq_one.1 h0
  obtain ⟨e0, e1⟩ := IntOp.andi_eq_one.1 h01
  -- each bit is a conjunction over the whole table; each conjunct is the entry's comparison
  exact ⟨fun i => real_of_cmp _ a0 i (Host.reduce_andi_all _ _ _ _ _ e0 i),
    fun i => real_of_cmp _ a1 i (Host.reduce_andi_all _ _ _ _ _ e1 i),
    fun i => real_of_cmp _ a2 i (Host.reduce_andi_all _ _ _ _ _ e2 i)⟩

end Cert.Bpr

end
-- ==== Proof.lean ====
/-
  The certificate: a tiled matrix kernel against its plain reference, equal over the reals under finite inputs.

  The kernel forms the table `Q = social_weight · user_emb + user_emb` tile by tile (fifty row tiles of 200; the
  product's operands narrowed to bf16, which is the identity on the reals) and answers, per batch entry, the inner
  product of `Q`'s gathered user row with the gathered item row. The reference answers the user–item inner product
  plus the social-weight row against every user's inner product with the item. The two are one number once every
  table entry is finite: distribute the item row over the table's sum, exchange the two finite sums, commute the
  factors (`Cert.Bpr.scoreK_eq_scoreR`). Both programs read their rows through the same start-index arithmetic and the
  same clamping gather, so the rows agree whatever the index arrays hold.

  The three frames: the two kernel programs by the launch of a pipeline two of whose windows read one array (its
  share dealt in halves), the reference by its host run. The idealization applied no rewrite, so nothing is owed for it.
-/
import proofs.«150750_j51737176048221_1_alg».proof.Defs
import proofs.«150750_j51737176048221_1_alg».proof.Proof.Gen.Kernel
import proofs.«150750_j51737176048221_1_alg».proof.Proof.Gen.KernelIdeal
import proofs.«150750_j51737176048221_1_alg».proof.Proof.Gen.ReferenceIdeal
import proofs.«150750_j51737176048221_1_alg».proof.Proof.Gen.Pre_finite_inputs
import proofs.«150750_j51737176048221_1_alg».proof.Proof.Gen.ReferenceIdeal.Run
import proofs.«150750_j51737176048221_1_alg».proof.Proof.Gen.ReferenceIdeal.Read
import proofs.«150750_j51737176048221_1_alg».proof.Proof.KernelLaunch
import proofs.«150750_j51737176048221_1_alg».proof.Proof.KernelIdealLaunch
import proofs.«150750_j51737176048221_1_alg».proof.Proof.KernelValue
import proofs.«150750_j51737176048221_1_alg».proof.Proof.RefValue
import proofs.«150750_j51737176048221_1_alg».proof.Proof.FiniteInputs
import proofs.«150750_j51737176048221_1_alg».proof.Proof.Spec
import Idealize.ShloMosaic.Adequacy
import Idealize.ShloMosaic.Init

noncomputable section

namespace Cert.Proof

open Idealize.ShloMosaic Idealize.SL.Sem

/-- The word-level kernel runs to the end and leaves its arguments as launched. -/
theorem frame_kernel : Cert.frame_Kernel := fun m ρ _ => Cert.Kernel.Tile.frame m ρ

/-- So does the idealized kernel. -/
theorem frame_kernelIdeal : Cert.frame_KernelIdeal := fun m ρ _ => Cert.KernelIdeal.Tile.frame m ρ

/-- The reference is host operations only: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the five arguments, the finite ones among them finite, both programs end with the same
    4096 scores: the kernel's at `resultK`, the reference's at `resultR`, one array by the law. -/
theorem algebraic : Cert.algebraic_KernelIdeal_ReferenceIdeal := by
  intro m ρ m' ρ' hpre hagree
  refine ⟨_, Cert.KernelIdeal.TileValue.run m ρ, ?_⟩
  refine (θ_run Cert.ReferenceIdeal.defs _ _).mono (fun _ h c => ⟨(h c).1.trans ?_, (h c).2⟩)
    (Cert.ReferenceIdeal.Value.run (F := Ideal) m' ρ')
  obtain ⟨hue, hie, hsw⟩ := Cert.Bpr.finite_of_pre _ _ _ _ _ (hpre c)
  rw [Cert.ReferenceIdeal.Read.val_main_v26_eq, Cert.ReferenceIdeal.RefValue.result_eq,
    (hagree c).1, (hagree c).2.1, (hagree c).2.2.1, (hagree c).2.2.2.1, (hagree c).2.2.2.2]
  exact (Cert.Bpr.resultK_eq_resultR _ _ _ _ _ _ _ hue hie hsw).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
